-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x31x31 : Shape := ⟨4, ![128, 256, 31, 31]⟩
abbrev S128x256x3 : Shape := ⟨3, ![128, 256, 3]⟩
abbrev S_ : Shape := ⟨0, ![]⟩
abbrev S128x256x2 : Shape := ⟨3, ![128, 256, 2]⟩

class Facts : Prop where
  bcast_S_S128x256x31x31 : S_.BroadcastsInDim S128x256x31x31 (![] : Fin 0 → Fin S128x256x31x31.rank)
  reducesTo_S128x256x31x31_S_d0_1_2_3 : S128x256x31x31.ReducesTo [0, 1, 2, 3] S_
  h_S_ : 0 < S_.numel
  slices_S128x256x3_S128x256x2_0_0_0 : S128x256x3.Slices ![0, 0, 0] S128x256x2
  bcast_S_S128x256x2 : S_.BroadcastsInDim S128x256x2 (![] : Fin 0 → Fin S128x256x2.rank)
  reducesTo_S128x256x2_S_d0_1_2 : S128x256x2.ReducesTo [0, 1, 2] S_

variable [Facts]

def fn {F : FTy → Type} [FloatOps F] (main_arg0 : FVec F S128x256x31x31 .f32) (main_arg1 : IVec S128x256x3 32) : IVec S_ 1 :=
  let main_v0 : FVec F S128x256x31x31 .f32 := Host.absf main_arg0
  let main_cst : FVec F S_ .f32 := constant S_ .f32 0x7F800000#32
  let main_v1 : FVec F S128x256x31x31 .f32 := broadcastInDim S128x256x31x31 ![] bcast_S_S128x256x31x31 main_cst
  let main_v2 : IVec S128x256x31x31 1 := cmpf .olt main_v0 main_v1
  let main_c : IVec S_ 1 := constantI S_ 1 1#1
  let main_v3 : IVec S_ 1 := (fun x v => Host.reduce IntOp.andi x v reducesTo_S128x256x31x31_S_d0_1_2_3 h_S_) main_v2 main_c
  let main_v4 : IVec S128x256x2 32 := (extractStridedSlice S128x256x2 ![0, 0, 0] · slices_S128x256x3_S128x256x2_0_0_0) main_arg1
  let main_c_0 : IVec S_ 32 := constantI S_ 32 15#32
  let main_v5 : IVec S128x256x2 32 := broadcastInDim S128x256x2 ![] bcast_S_S128x256x2 main_c_0
  let main_v6 : IVec S128x256x2 1 := cmpi .sge main_v4 main_v5
  let main_c_1 : IVec S_ 1 := constantI S_ 1 1#1
  let main_v7 : IVec S_ 1 := (fun x v => Host.reduce IntOp.andi x v reducesTo_S128x256x2_S_d0_1_2 h_S_) main_v6 main_c_1
  let main_v8 : IVec S_ 1 := andi main_v3 main_v7
  let main_v9 : IVec S128x256x2 32 := (extractStridedSlice S128x256x2 ![0, 0, 0] · slices_S128x256x3_S128x256x2_0_0_0) main_arg1
  let main_c_2 : IVec S_ 32 := constantI S_ 32 184#32
  let main_v10 : IVec S128x256x2 32 := broadcastInDim S128x256x2 ![] bcast_S_S128x256x2 main_c_2
  let main_v11 : IVec S128x256x2 1 := cmpi .sle main_v9 main_v10
  let main_c_3 : IVec S_ 1 := constantI S_ 1 1#1
  let main_v12 : IVec S_ 1 := (fun x v => Host.reduce IntOp.andi x v reducesTo_S128x256x2_S_d0_1_2 h_S_) main_v11 main_c_3
  let main_v13 : IVec S_ 1 := andi main_v8 main_v12
  main_v13
-- ==== Kernel.lean ====
abbrev S128x256x31x31 : Shape := ⟨4, ![128, 256, 31, 31]⟩
abbrev S128x256x3 : Shape := ⟨3, ![128, 256, 3]⟩
abbrev S128x1x200x200 : Shape := ⟨4, ![128, 1, 200, 200]⟩
abbrev S1x64x31x31 : Shape := ⟨4, ![1, 64, 31, 31]⟩
abbrev S1x64x3 : Shape := ⟨3, ![1, 64, 3]⟩
abbrev S1x1x200x200 : Shape := ⟨4, ![1, 1, 200, 200]⟩
abbrev S200x200 : Shape := ⟨2, ![200, 200]⟩
abbrev S64x31x31 : Shape := ⟨3, ![64, 31, 31]⟩
abbrev S64x3 : Shape := ⟨2, ![64, 3]⟩
abbrev S64x1 : Shape := ⟨2, ![64, 1]⟩
abbrev S64 : Shape := ⟨1, ![64]⟩
abbrev S64x1x1 : Shape := ⟨3, ![64, 1, 1]⟩
abbrev S200x31 : Shape := ⟨2, ![200, 31]⟩
abbrev S31x200 : Shape := ⟨2, ![31, 200]⟩
abbrev S1x200x31 : Shape := ⟨3, ![1, 200, 31]⟩
abbrev S64x200x31 : Shape := ⟨3, ![64, 200, 31]⟩
abbrev S1x31x200 : Shape := ⟨3, ![1, 31, 200]⟩
abbrev S64x31x200 : Shape := ⟨3, ![64, 31, 200]⟩
abbrev S200x64x31 : Shape := ⟨3, ![200, 64, 31]⟩
abbrev S200x1984 : Shape := ⟨2, ![200, 1984]⟩
abbrev S1984x200 : Shape := ⟨2, ![1984, 200]⟩

abbrev nBuf : Space → Nat
  | .hbm => 3
  | .vmem => 7
  | .smem => 0
  | _ => 0

abbrev bufTy : (tb : Table) → Fin (tcTables nBuf tb) → BufTy
  | .hbm, ⟨0, _⟩ => ⟨S128x256x31x31, .f32⟩
  | .hbm, ⟨1, _⟩ => ⟨S128x256x3, .i32⟩
  | .hbm, ⟨2, _⟩ => ⟨S128x1x200x200, .f32⟩
  | .local _ .vmem, ⟨0, _⟩ => ⟨S1x64x31x31, .f32⟩
  | .local _ .vmem, ⟨1, _⟩ => ⟨S1x64x31x31, .f32⟩
  | .local _ .vmem, ⟨2, _⟩ => ⟨S1x64x3, .i32⟩
  | .local _ .vmem, ⟨3, _⟩ => ⟨S1x64x3, .i32⟩
  | .local _ .vmem, ⟨4, _⟩ => ⟨S1x1x200x200, .f32⟩
  | .local _ .vmem, ⟨5, _⟩ => ⟨S1x1x200x200, .f32⟩
  | .local _ .vmem, ⟨6, _⟩ => ⟨S200x200, .f32⟩
  | _, _ => ⟨S128x256x31x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![128, 4], ![false, false]⟩

def k0_cond2 (i : grid0.Coords) : BitVec 1 :=
  let arg1 : BitVec 32 := BitVec.ofNat 32 (i 1).val
  let c3_i32 : BitVec 32 := 3#32
  let v49 : BitVec 1 := Scalar.cmpi .eq arg1 c3_i32
  let v50 : BitVec 32 := Scalar.extui v49
  let c0_i32_13 : BitVec 32 := 0#32
  let v51 : BitVec 1 := Scalar.cmpi .ne v50 c0_i32_13
  v51

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x31x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x200x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S200x200_S200x200_0_0 : ∀ a, (![0, 0] : Fin 2 → Nat) a + S200x200.size a ≤ S200x200.size a
  h_S200x200 : 0 < S200x200.numel
  shapeCasts_S200x200_S200x200 : S200x200.ShapeCasts S200x200
  inb_S1x64x31x31_S1x64x31x31_0_0_0_0 : ∀ a, (![0, 0, 0, 0] : Fin 4 → Nat) a + S1x64x31x31.size a ≤ S1x64x31x31.size a
  h_S1x64x31x31 : 0 < S1x64x31x31.numel
  shapeCasts_S1x64x31x31_S64x31x31 : S1x64x31x31.ShapeCasts S64x31x31
  bitsLt_bf16_f32 : FTy.bits .bf16 < FTy.bits .f32
  inb_S1x64x3_S1x64x3_0_0_0 : ∀ a, (![0, 0, 0] : Fin 3 → Nat) a + S1x64x3.size a ≤ S1x64x3.size a
  h_S1x64x3 : 0 < S1x64x3.numel
  shapeCasts_S1x64x3_S64x3 : S1x64x3.ShapeCasts S64x3
  slices_S64x3_o0_0_S64x1 : S64x3.Slices ![0, 0] S64x1
  shapeCasts_S64x1_S64 : S64x1.ShapeCasts S64
  shapeCasts_S64_S64x1x1 : S64.ShapeCasts S64x1x1
  slices_S64x3_o0_1_S64x1 : S64x3.Slices ![0, 1] S64x1
  iota_S200x31_d0_w32 : S200x31.Iotas .tc 32 [0]
  iota_S200x31_d1_w32 : S200x31.Iotas .tc 32 [1]
  iota_S31x200_d1_w32 : S31x200.Iotas .tc 32 [1]
  iota_S31x200_d0_w32 : S31x200.Iotas .tc 32 [0]
  shapeCasts_S200x31_S1x200x31 : S200x31.ShapeCasts S1x200x31
  broadcasts_S1x200x31_S64x200x31 : S1x200x31.Broadcasts S64x200x31
  broadcasts_S64x1x1_S64x200x31 : S64x1x1.Broadcasts S64x200x31
  natLt_1_32 : 1 < 32
  shapeCasts_S31x200_S1x31x200 : S31x200.ShapeCasts S1x31x200
  broadcasts_S1x31x200_S64x31x200 : S1x31x200.Broadcasts S64x31x200
  broadcasts_S64x1x1_S64x31x200 : S64x1x1.Broadcasts S64x31x200
  transposes_S64x200x31_p1_0_2_S200x64x31 : S64x200x31.Transposes [1, 0, 2] S200x64x31
  shapeCasts_S200x64x31_S200x1984 : S200x64x31.ShapeCasts S200x1984
  shapeCasts_S64x31x200_S1984x200 : S64x31x200.ShapeCasts S1984x200
  inb_S1x1x200x200_S1x1x200x200_0_0_0_0 : ∀ a, (![0, 0, 0, 0] : Fin 4 → Nat) a + S1x1x200x200.size a ≤ S1x1x200x200.size a
  h_S1x1x200x200 : 0 < S1x1x200x200.numel
  shapeCasts_S1x1x200x200_S200x200 : S1x1x200x200.ShapeCasts S200x200
  shapeCasts_S200x200_S1x1x200x200 : S200x200.ShapeCasts S1x1x200x200
  dot_S64x31x31_S64x31x200_S64x31x200_2_1_1_2_0_0_wf : DotDims.WF S64x31x31 S64x31x200 S64x31x200 [2] [1] [1] [2] [0] [0]
  dot_S200x1984_S1984x200_S200x200_1_0_0_1_n_n_wf : DotDims.WF S200x1984 S1984x200 S200x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x31x31.size a ≤ S128x256x31x31.size a
  hwx0_0 : ∀ i : grid0.Coords, EltTy.bits .f32 = 32 ∨ (Rect.block (s := S128x256x31x31) S1x64x31x31.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x3.size a ≤ S128x256x3.size a
  hwx0_1 : ∀ i : grid0.Coords, EltTy.bits .i32 = 32 ∨ (Rect.block (s := S128x256x3) S1x64x3.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x200x200.size a ≤ S128x1x200x200.size a
  hwx0_2 : ∀ i : grid0.Coords, EltTy.bits .f32 = 32 ∨ (Rect.block (s := S128x1x200x200) S1x1x200x200.size (cc0_transform_2 i) (hinb0_2 i)).WholeWords (EltTy.packing .f32)

variable [Facts₀]

def dot_S64x31x31_S64x31x200_S64x31x200_2_1_1_2_0_0 : DotDims S64x31x31 S64x31x200 S64x31x200 where
  lhsContracting := [2]
  rhsContracting := [1]
  lhsNonContracting := [1]
  rhsNonContracting := [2]
  lhsBatch := [0]
  rhsBatch := [0]
  wf := dot_S64x31x31_S64x31x200_S64x31x200_2_1_1_2_0_0_wf
def dot_S200x1984_S1984x200_S200x200_1_0_0_1_n_n : DotDims S200x1984 S1984x200 S200x200 where
  lhsContracting := [1]
  rhsContracting := [0]
  lhsNonContracting := [0]
  rhsNonContracting := [1]
  lhsBatch := []
  rhsBatch := []
  wf := dot_S200x1984_S1984x200_S200x200_1_0_0_1_n_n_wf

abbrev win0_0 : Pipeline.Window sig grid0 :=
  Pipeline.Window.ofSpec (Memref.whole main_arg0) S1x64x31x31.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x200x200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x256x31x31 : Shape := ⟨4, ![128, 256, 31, 31]⟩
abbrev S128x256x3 : Shape := ⟨3, ![128, 256, 3]⟩
abbrev S128x256x1 : Shape := ⟨3, ![128, 256, 1]⟩
abbrev S128x256 : Shape := ⟨2, ![128, 256]⟩
abbrev S_ : Shape := ⟨0, ![]⟩
abbrev S31 : Shape := ⟨1, ![31]⟩
abbrev S1x1x31 : Shape := ⟨3, ![1, 1, 31]⟩
abbrev S128x256x31 : Shape := ⟨3, ![128, 256, 31]⟩
abbrev S128 : Shape := ⟨1, ![128]⟩
abbrev S128x1x1x1 : Shape := ⟨4, ![128, 1, 1, 1]⟩
abbrev S128x256x31x1 : Shape := ⟨4, ![128, 256, 31, 1]⟩
abbrev S128x256x1x31 : Shape := ⟨4, ![128, 256, 1, 31]⟩
abbrev S5120000 : Shape := ⟨1, ![5120000]⟩
abbrev S31490048 : Shape := ⟨1, ![31490048]⟩
abbrev S31490048x1 : Shape := ⟨2, ![31490048, 1]⟩
abbrev S128x1x200x200 : Shape := ⟨4, ![128, 1, 200, 200]⟩

abbrev nBuf : Space → Nat
  | .hbm => 53
  | .vmem => 0
  | .smem => 0
  | _ => 0

abbrev bufTy : (tb : Table) → Fin (tcTables nBuf tb) → BufTy
  | .hbm, ⟨0, _⟩ => ⟨S128x256x31x31, .f32⟩
  | .hbm, ⟨1, _⟩ => ⟨S128x256x3, .i32⟩
  | .hbm, ⟨2, _⟩ => ⟨S128x256x1, .i32⟩
  | .hbm, ⟨3, _⟩ => ⟨S128x256, .i32⟩
  | .hbm, ⟨4, _⟩ => ⟨S128x256x1, .i32⟩
  | .hbm, ⟨5, _⟩ => ⟨S128x256, .i32⟩
  | .hbm, ⟨6, _⟩ => ⟨S128x256x1, .i32⟩
  | .hbm, ⟨7, _⟩ => ⟨S_, .i32⟩
  | .hbm, ⟨8, _⟩ => ⟨S128x256x1, .i32⟩
  | .hbm, ⟨9, _⟩ => ⟨S128x256x1, .i32⟩
  | .hbm, ⟨10, _⟩ => ⟨S31, .i32⟩
  | .hbm, ⟨11, _⟩ => ⟨S1x1x31, .i32⟩
  | .hbm, ⟨12, _⟩ => ⟨S128x256x31, .i32⟩
  | .hbm, ⟨13, _⟩ => ⟨S128x256x31, .i32⟩
  | .hbm, ⟨14, _⟩ => ⟨S128x256x31, .i32⟩
  | .hbm, ⟨15, _⟩ => ⟨S128x256x1, .i32⟩
  | .hbm, ⟨16, _⟩ => ⟨S_, .i32⟩
  | .hbm, ⟨17, _⟩ => ⟨S128x256x1, .i32⟩
  | .hbm, ⟨18, _⟩ => ⟨S128x256x1, .i32⟩
  | .hbm, ⟨19, _⟩ => ⟨S31, .i32⟩
  | .hbm, ⟨20, _⟩ => ⟨S1x1x31, .i32⟩
  | .hbm, ⟨21, _⟩ => ⟨S128x256x31, .i32⟩
  | .hbm, ⟨22, _⟩ => ⟨S128x256x31, .i32⟩
  | .hbm, ⟨23, _⟩ => ⟨S128x256x31, .i32⟩
  | .hbm, ⟨24, _⟩ => ⟨S128, .i32⟩
  | .hbm, ⟨25, _⟩ => ⟨S128x1x1x1, .i32⟩
  | .hbm, ⟨26, _⟩ => ⟨S_, .i32⟩
  | .hbm, ⟨27, _⟩ => ⟨S128x1x1x1, .i32⟩
  | .hbm, ⟨28, _⟩ => ⟨S128x1x1x1, .i32⟩
  | .hbm, ⟨29, _⟩ => ⟨S128x256x31x1, .i32⟩
  | .hbm, ⟨30, _⟩ => ⟨S128x256x31x1, .i32⟩
  | .hbm, ⟨31, _⟩ => ⟨S128x256x31x1, .i32⟩
  | .hbm, ⟨32, _⟩ => ⟨S_, .i32⟩
  | .hbm, ⟨33, _⟩ => ⟨S128x256x31x1, .i32⟩
  | .hbm, ⟨34, _⟩ => ⟨S128x256x31x1, .i32⟩
  | .hbm, ⟨35, _⟩ => ⟨S128x256x1x31, .i32⟩
  | .hbm, ⟨36, _⟩ => ⟨S128x256x31x31, .i32⟩
  | .hbm, ⟨37, _⟩ => ⟨S128x256x31x31, .i32⟩
  | .hbm, ⟨38, _⟩ => ⟨S128x256x31x31, .i32⟩
  | .hbm, ⟨39, _⟩ => ⟨S_, .f32⟩
  | .hbm, ⟨40, _⟩ => ⟨S5120000, .f32⟩
  | .hbm, ⟨41, _⟩ => ⟨S31490048, .i32⟩
  | .hbm, ⟨42, _⟩ => ⟨S31490048, .f32⟩
  | .hbm, ⟨43, _⟩ => ⟨S_, .i32⟩
  | .hbm, ⟨44, _⟩ => ⟨S31490048, .i32⟩
  | .hbm, ⟨45, _⟩ => ⟨S31490048, .i1⟩
  | .hbm, ⟨46, _⟩ => ⟨S_, .i32⟩
  | .hbm, ⟨47, _⟩ => ⟨S31490048, .i32⟩
  | .hbm, ⟨48, _⟩ => ⟨S31490048, .i32⟩
  | .hbm, ⟨49, _⟩ => ⟨S31490048, .i32⟩
  | .hbm, ⟨50, _⟩ => ⟨S31490048x1, .i32⟩
  | .hbm, ⟨51, _⟩ => ⟨S5120000, .f32⟩
  | .hbm, ⟨52, _⟩ => ⟨S128x1x200x200, .f32⟩
  | _, _ => ⟨S128x256x31x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c_3 : Ref sig .tc := ⟨.hbm, 43, rfl⟩
abbrev main_v36 : Ref sig .tc := ⟨.hbm, 44, rfl⟩
abbrev main_v37 : Ref sig .tc := ⟨.hbm, 45, rfl⟩
abbrev main_c_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]

class Facts₀ : Prop where
  slices_S128x256x3_S128x256x1_0_0_0 : S128x256x3.Slices ![0, 0, 0] S128x256x1
  shapeCasts_S128x256x1_S128x256 : S128x256x1.ShapeCasts S128x256
  slices_S128x256x3_S128x256x1_0_0_1 : S128x256x3.Slices ![0, 0, 1] S128x256x1
  bcast_S128x256_S128x256x1_0_1 : S128x256.BroadcastsInDim S128x256x1 (![0, 1] : Fin 2 → Fin S128x256x1.rank)
  bcast_S_S128x256x1 : S_.BroadcastsInDim S128x256x1 (![] : Fin 0 → Fin S128x256x1.rank)
  bcast_S31_S1x1x31_2 : S31.BroadcastsInDim S1x1x31 (![2] : Fin 1 → Fin S1x1x31.rank)
  bcast_S128x256x1_S128x256x31_0_1_2 : S128x256x1.BroadcastsInDim S128x256x31 (![0, 1, 2] : Fin 3 → Fin S128x256x31.rank)
  bcast_S1x1x31_S128x256x31_0_1_2 : S1x1x31.BroadcastsInDim S128x256x31 (![0, 1, 2] : Fin 3 → Fin S128x256x31.rank)
  bcast_S128_S128x1x1x1_0 : S128.BroadcastsInDim S128x1x1x1 (![0] : Fin 1 → Fin S128x1x1x1.rank)
  bcast_S_S128x1x1x1 : S_.BroadcastsInDim S128x1x1x1 (![] : Fin 0 → Fin S128x1x1x1.rank)
  bcast_S128x256x31_S128x256x31x1_0_1_2 : S128x256x31.BroadcastsInDim S128x256x31x1 (![0, 1, 2] : Fin 3 → Fin S128x256x31x1.rank)
  bcast_S128x1x1x1_S128x256x31x1_0_1_2_3 : S128x1x1x1.BroadcastsInDim S128x256x31x1 (![0, 1, 2, 3] : Fin 4 → Fin S128x256x31x1.rank)
  bcast_S_S128x256x31x1 : S_.BroadcastsInDim S128x256x31x1 (![] : Fin 0 → Fin S128x256x31x1.rank)
  bcast_S128x256x31_S128x256x1x31_0_1_3 : S128x256x31.BroadcastsInDim S128x256x1x31 (![0, 1, 3] : Fin 3 → Fin S128x256x1x31.rank)
  bcast_S128x256x31x1_S128x256x31x31_0_1_2_3 : S128x256x31x1.BroadcastsInDim S128x256x31x31 (![0, 1, 2, 3] : Fin 4 → Fin S128x256x31x31.rank)
  bcast_S128x256x1x31_S128x256x31x31_0_1_2_3 : S128x256x1x31.BroadcastsInDim S128x256x31x31 (![0, 1, 2, 3] : Fin 4 → Fin S128x256x31x31.rank)
  bcast_S_S5120000 : S_.BroadcastsInDim S5120000 (![] : Fin 0 → Fin S5120000.rank)
  shapeCasts_S128x256x31x31_S31490048 : S128x256x31x31.ShapeCasts S31490048
  bcast_S_S31490048 : S_.BroadcastsInDim S31490048 (![] : Fin 0 → Fin S31490048.rank)
  bcast_S31490048_S31490048x1_0 : S31490048.BroadcastsInDim S31490048x1 (![0] : Fin 1 → Fin S31490048x1.rank)
  shapeCasts_S5120000_S128x1x200x200 : S5120000.ShapeCasts S128x1x200x200
  scatter_S5120000_S31490048x1_S31490048_n_0_0_1_wf : ScatterDims.WF S5120000 S31490048x1 S31490048 [] [0] [0] 1

variable [Facts₀]

def scatter_S5120000_S31490048x1_S31490048_n_0_0_1 : ScatterDims S5120000 S31490048x1 S31490048 where
  updateWindowDims := []
  insertedWindowDims := [0]
  scatterDimsToOperandDims := [0]
  indexVectorDim := 1
  wf := scatter_S5120000_S31490048x1_S31490048_n_0_0_1_wf

class Facts : Prop extends Facts₀ where

variable [Facts]
-- ==== Proof.Spec.lean ====
/-
  The patch canvas, as one function of the argument arrays.

  Every batch `b` owns a 200 × 200 canvas. Emitter `e` of the batch carries a 31 × 31 patch and a centre (x, y); patch
  element (i, j) is added to canvas element (x − 15 + i, y − 15 + j). Read from the canvas side: canvas element (r, c) of
  batch `b` is the sum, over the emitters `e` and the patch coordinates (i, j), of patch element (i, j) of `e` whenever
  r − i = x − 15 and c − j = y − 15. The two equations are stated on 32-bit words, as both programs compute them; for
  centres in [15, 184] they are the same equations over the integers.

  Also here: sums over a product of finite ranges re-indexed by quotient and remainder, which is how a flattened array's
  sum and a matrix product's contraction over (emitter, patch row) both become iterated sums.
-/
import Idealize.ShloMosaic.PureOps.Ideal
import Idealize.ShloMosaic.Lib.ValueIdx

noncomputable section

namespace Cert.PatchCanvas

open Idealize.ShloMosaic Idealize.ShloMosaic.ValueIdx

/-- Patch coordinate `i` lands on canvas coordinate `r` for the centre word `w`: r − i = w − 15, on 32-bit words. -/
def lands (w : BitVec 32) (r : Fin 200) (i : Fin 31) : Prop :=
  BitVec.ofNat 32 r.val - BitVec.ofNat 32 i.val = w - 15#32

instance (w : BitVec 32) (r : Fin 200) (i : Fin 31) : Decidable (lands w r i) := by unfold lands; infer_instance

/-- A centre word whose whole patch stays on the canvas: 15 ≤ w ≤ 184, read signed. -/
def InRange (w : BitVec 32) : Prop := 15 ≤ w.toInt ∧ w.toInt ≤ 184

/-- What `n` emitters with patches `p e` and centre words (`xw e`, `yw e`) add to canvas element (r, c). -/
def splat (n : Nat) (p : Fin n → Fin 31 → Fin 31 → EReal) (xw yw : Fin n → BitVec 32) (r c : Fin 200) : EReal :=
  ∑ e : Fin n, ∑ i : Fin 31, ∑ j : Fin 31, if lands (xw e) r i ∧ lands (yw e) c j then p e i j else 0

/-- One chunk of 64 emitters. -/
abbrev chunk := splat 64

/-- All 256 emitters of a batch. -/
abbrev canvasOf := splat 256

/-- Emitter `e` of chunk `ch` is emitter 64·ch + e of the batch. -/
def cat (ch : Fin 4) (e : Fin 64) : Fin 256 := ⟨64 * ch.val + e.val, by have := ch.isLt; have := e.isLt; omega⟩

/-- Canvas element (r, c) of batch `b`, from the patches `img` and the centres `xyz` (x in column 0, y in column 1). -/
def canvas (img : (⟨4, ![128, 256, 31, 31]⟩ : Shape).Idx → EReal) (xyz : (⟨3, ![128, 256, 3]⟩ : Shape).Idx → BitVec 32)
    (b : Fin 128) (r c : Fin 200) : EReal :=
  canvasOf (fun e i j => img (ix4 b e i j)) (fun e => xyz (ix3 b e (0 : Fin 3))) (fun e => xyz (ix3 b e (1 : Fin 3))) r c

/-! ## Sums re-indexed by quotient and remainder -/

/-- A sum over `Fin (a * b)` read through quotient and remainder by `b` is the iterated sum. -/
theorem sum_divmod {M : Type*} [AddCommMonoid M] (a b : Nat) (f : Fin a → Fin b → M)
    (g : Fin (a * b) → M)
    (hg : ∀ (e : Fin a) (i : Fin b) (k : Fin (a * b)), k.val = e.val * b + i.val → g k = f e i) :
    ∑ k : Fin (a * b), g k = ∑ e : Fin a, ∑ i : Fin b, f e i := by
  rw [← Fintype.sum_prod_type' (f := f)]
  refine (Equiv.sum_comp finProdFinEquiv g).symm.trans ?_
  refine Finset.sum_congr rfl fun x _ => ?_
  refine hg x.1 x.2 _ ?_
  show x.2.val + b * x.1.val = x.1.val * b + x.2.val
  rw [Nat.mul_comm, Nat.add_comm]

/-- The 256 emitters of a batch are its four chunks of 64, one after the other. -/
theorem canvasOf_eq_sum_chunks (p : Fin 256 → Fin 31 → Fin 31 → EReal) (xw yw : Fin 256 → BitVec 32) (r c : Fin 200) :
    canvasOf p xw yw r c
      = ∑ ch : Fin 4, chunk (fun e i j => p (cat ch e) i j) (fun e => xw (cat ch e)) (fun e => yw (cat ch e)) r c := by
  show splat 256 p xw yw r c = ∑ ch : Fin 4, splat 64 _ _ _ r c
  unfold splat
  refine sum_divmod 4 64
    (fun ch e => ∑ i : Fin 31, ∑ j : Fin 31, if lands (xw (cat ch e)) r i ∧ lands (yw (cat ch e)) c j then p (cat ch e) i j else 0)
    (fun k : Fin (4 * 64) => ∑ i : Fin 31, ∑ j : Fin 31, if lands (xw k) r i ∧ lands (yw k) c j then p k i j else 0) ?_
  intro ch e k hk
  have hke : k = cat ch e := Fin.ext (by rw [hk]; show ch.val * 64 + e.val = 64 * ch.val + e.val; omega)
  rw [hke]

end Cert.PatchCanvas

end
-- ==== Proof.PreRange.lean ====
/-
  The precondition, decoded: every x and y centre word lies in [15, 184].

  The precondition's integer part says, of columns 0 and 1 of the centre array, that every word is at least 15 and at
  most 184 as a signed integer: two `all`s over the [128, 256, 2] slice, joined by `and`. An `and`-reduction that comes
  out 1 met a 1 at every index, and a signed comparison word that is 1 says its inequality.
-/
import proofs.«421207_j68968584839577_2_alg».proof.Pre_finite_inputs
import proofs.«421207_j68968584839577_2_alg».proof.Proof.Gen.Pre_finite_inputs
import proofs.«421207_j68968584839577_2_alg».proof.Proof.Spec
import Idealize.ShloMosaic.Lib.ReduceAll
import Idealize.ShloMosaic.Lib.Pipeline.Value
import Idealize.ShloMosaic.Lib.ValueIdx

noncomputable section

namespace Cert.PatchCanvas.PreRange

open Idealize.ShloMosaic Idealize.ShloMosaic.ValueIdx Cert.Pre_finite_inputs Cert.PatchCanvas

instance : Subsingleton S_.Idx := ⟨fun a b => funext fun d => d.elim0⟩

/-- Column `k` < 2 of the centre array, at (b, e), through the [128, 256, 2] slice. -/
theorem slice_apply (a1 : IVec S128x256x3 32) (b : Fin 128) (e : Fin 256) (k : Fin 2) :
    extractStridedSlice S128x256x2 ![0, 0, 0] a1 Facts.slices_S128x256x3_S128x256x2_0_0_0 (ix3 b e k)
      = a1 (ix3 b e ⟨k.val, by omega⟩) :=
  extractStridedSlice_apply ![0, 0, 0] a1 Facts.slices_S128x256x3_S128x256x2_0_0_0 (ix3 b e k) (ix3 b e ⟨k.val, by omega⟩)
    (fun a => match a with
      | ⟨0, _⟩ => by show b.val = 0 + b.val; omega
      | ⟨1, _⟩ => by show e.val = 0 + e.val; omega
      | ⟨2, _⟩ => by show k.val = 0 + k.val; omega)

/-- Under the precondition every x and y centre word is in [15, 184]. -/
theorem inRange_of_pre {F : FTy → Type} [FloatOps F] (a0 : FVec F S128x256x31x31 .f32) (a1 : IVec S128x256x3 32)
    (h : Cert.Pre_finite_inputs.fn (F := F) a0 a1 = fun _ => 1#1) (b : Fin 128) (e : Fin 256) (k : Fin 2) :
    InRange (a1 (ix3 b e ⟨k.val, by omega⟩)) := by
  have h0 := congrFun h ix0
  dsimp only [Cert.Pre_finite_inputs.fn] at h0
  obtain ⟨h1, hle⟩ := IntOp.andi_eq_one.1 h0
  obtain ⟨-, hge⟩ := IntOp.andi_eq_one.1 h1
  have hge' := Host.reduce_andi_all _ _ _ _ _ hge (ix3 b e k)
  have hle' := Host.reduce_andi_all _ _ _ _ _ hle (ix3 b e k)
  have e1 : ∀ x : BitVec 32, broadcastInDim S128x256x2 ![] Facts.bcast_S_S128x256x2 (constantI S_ 32 x) (ix3 b e k) = x := fun _ => rfl
  rw [show ∀ (p q : IVec S128x256x2 32) (i : S128x256x2.Idx), cmpi .sge p q i = IntOp.cmpi .sge (p i) (q i) from fun _ _ _ => rfl,
    slice_apply, e1, IntOp.cmpi_sge] at hge'
  rw [show ∀ (p q : IVec S128x256x2 32) (i : S128x256x2.Idx), cmpi .sle p q i = IntOp.cmpi .sle (p i) (q i) from fun _ _ _ => rfl,
    slice_apply, e1, IntOp.cmpi_sle] at hle'
  exact ⟨by simpa using hge', by simpa using hle'⟩

end Cert.PatchCanvas.PreRange

end
-- ==== Proof.KernelPieces.lean ====
/-
  What one grid point leaves behind, as values.

  The body keeps a 200 × 200 accumulator between the grid points of a batch. At the batch's first chunk it stores zeros
  into the accumulator, reads them back and adds the chunk's partial canvas; at every later chunk it adds the chunk's
  partial canvas to what the chunk before left; at the last chunk it also copies the accumulator into the output block.
  Each statement below reads the stores one case of the body made as one array.
-/
import proofs.«421207_j68968584839577_2_alg».proof.Proof.Gen.KernelIdeal.Frame
import Idealize.ShloMosaic.Lib.Pipeline.Value
import Idealize.ShloMosaic.Lib.Tactic

noncomputable section

namespace Cert.PatchCanvas.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A middle chunk: the accumulator ends at what it held plus the chunk's partial canvas. -/
theorem scratch_B (c : Dev nD) (i : grid0.Coords) (arg2 : Memref sig .tc .vmem S1x64x31x31 .f32) (harg2 : arg2.IsWhole) (arg3 : Memref sig .tc .vmem S1x64x3 .i32) (harg3 : arg3.IsWhole) (arg4 : Memref sig .tc .vmem S1x1x200x200 .f32) (harg4 : arg4.IsWhole) (arg5 : Memref sig .tc .vmem S200x200 .f32) (harg5 : arg5.IsWhole) (hc0 : ¬cond0_0 i) (hc1 : ¬cond0_1 i)
    (x0 : Vec F S1x64x31x31 .f32) (x1 : Vec F S1x64x3 .i32) (xs0 : Vec F S200x200 .f32) :
    sout0_B_0 c i arg2 harg2 arg3 harg3 arg4 harg4 arg5 harg5 hc0 hc1 x0 x1 xs0 = k0_pay1 (k0_pay4 x0 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S1x64x31x31) hz4, View.ld_unit_zero (S := S1x64x3) hz3, View.ld_unit_zero (S := S200x200) hz2]

/-- The last chunk: the accumulator ends at what it held plus the chunk's partial canvas, as in the middle. -/
theorem scratch_C (c : Dev nD) (i : grid0.Coords) (arg2 : Memref sig .tc .vmem S1x64x31x31 .f32) (harg2 : arg2.IsWhole) (arg3 : Memref sig .tc .vmem S1x64x3 .i32) (harg3 : arg3.IsWhole) (arg4 : Memref sig .tc .vmem S1x1x200x200 .f32) (harg4 : arg4.IsWhole) (arg5 : Memref sig .tc .vmem S200x200 .f32) (harg5 : arg5.IsWhole) (hc0 : ¬cond0_0 i) (hc1 : cond0_1 i)
    (x0 : Vec F S1x64x31x31 .f32) (x1 : Vec F S1x64x3 .i32) (xs0 : Vec F S200x200 .f32) :
    sout0_C_0 c i arg2 harg2 arg3 harg3 arg4 harg4 arg5 harg5 hc0 hc1 x0 x1 xs0 = k0_pay1 (k0_pay4 x0 x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S1x64x31x31) hz4, View.ld_unit_zero (S := S1x64x3) hz3, View.ld_unit_zero (S := S200x200) hz2]

/-- The last chunk: the output block ends at the accumulator's final contents, viewed [1, 1, 200, 200]. -/
theorem out_C (c : Dev nD) (i : grid0.Coords) (arg2 : Memref sig .tc .vmem S1x64x31x31 .f32) (harg2 : arg2.IsWhole) (arg3 : Memref sig .tc .vmem S1x64x3 .i32) (harg3 : arg3.IsWhole) (arg4 : Memref sig .tc .vmem S1x1x200x200 .f32) (harg4 : arg4.IsWhole) (arg5 : Memref sig .tc .vmem S200x200 .f32) (harg5 : arg5.IsWhole) (hc0 : ¬cond0_0 i) (hc1 : cond0_1 i)
    (x0 : Vec F S1x64x31x31 .f32) (x1 : Vec F S1x64x3 .i32) (xs0 : Vec F S200x200 .f32) :
    out0_C_2 c i arg2 harg2 arg3 harg3 arg4 harg4 arg5 harg5 hc0 hc1 x0 x1 xs0 = k0_pay2 (k0_pay1 (k0_pay4 x0 x1) xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz4]
  simp only [View.readCov_unit_zero (S := S200x200) _ hz2, View.readAt_eq_ld, harg2.read_unread, harg3.read_unread, harg5.read_unread,
    View.ld_unit_zero (S := S1x64x31x31) hz4, View.ld_unit_zero (S := S1x64x3) hz3, View.ld_unit_zero (S := S200x200) hz2]

/-- The first chunk: the accumulator ends at zero plus the chunk's partial canvas. -/
theorem scratch_A (c : Dev nD) (i : grid0.Coords) (arg2 : Memref sig .tc .vmem S1x64x31x31 .f32) (harg2 : arg2.IsWhole) (arg3 : Memref sig .tc .vmem S1x64x3 .i32) (harg3 : arg3.IsWhole) (arg4 : Memref sig .tc .vmem S1x1x200x200 .f32) (harg4 : arg4.IsWhole) (arg5 : Memref sig .tc .vmem S200x200 .f32) (harg5 : arg5.IsWhole) (hc0 : cond0_0 i) (hc1 : ¬cond0_1 i)
    (x0 : Vec F S1x64x31x31 .f32) (x1 : Vec F S1x64x3 .i32) :
    sout0_A_0 c i arg2 harg2 arg3 harg3 arg4 harg4 arg5 harg5 hc0 hc1 x0 x1 = k0_pay1 (k0_pay4 x0 x1) (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S200x200) hz2, View.readCov_unit_zero (S := S200x200) _ hz2]
  simp only [View.readAt_eq_ld, harg2.read_unread, harg3.read_unread,
    View.ld_unit_zero (S := S1x64x31x31) hz4, View.ld_unit_zero (S := S1x64x3) hz3]

end Cert.PatchCanvas.Pieces

end
-- ==== Proof.KernelAcc.lean ====
/-
  The accumulator after every grid point, and the output block at a batch's last chunk.

  Grid point n = 4·b + k handles chunk k of batch b. Write P(n) for the chunk's partial canvas, the body's two matrix
  products of point n's blocks. The accumulator is reset to 0 + P(4b) at the batch's first chunk and each later chunk adds
  its own partial canvas, so after point 4b + k it holds 0 + P(4b) + … + P(4b + k); at k = 3 the body copies it into the
  output block, viewed [1, 1, 200, 200].
-/
import proofs.«421207_j68968584839577_2_alg».proof.Proof.Gen.KernelIdeal.Value
import proofs.«421207_j68968584839577_2_alg».proof.Proof.KernelPieces
import Idealize.ShloMosaic.Lib.ValueIdx
import Idealize.ShloMosaic.Lib.Pipeline.Value
import Idealize.ShloMosaic.PureOps.Ideal.Laws

noncomputable section

namespace Cert.PatchCanvas.Acc

open Idealize.ShloMosaic Idealize.ShloMosaic.TcCoe Idealize.SL.Sem Idealize.ShloMosaic.ValueIdx
open Cert.KernelIdeal Cert.KernelIdeal.Gen Cert.KernelIdeal.Value Cert.PatchCanvas.Pieces

variable (m : (ℓ : Loc nD τ sig) → Buf (Elt Ideal) ℓ)

/-- The update's payload at an element: what the accumulator held plus the partial canvas. -/
theorem pay1_apply (v43 : FVec Ideal S200x200 .f32) (v44 : Vec Ideal S200x200 .f32) (q : S200x200.Idx) :
    (k0_pay1 (F := Ideal) v43 v44 : S200x200.Idx → EReal) q = v44 q + v43 q := by
  unfold k0_pay1
  simp only [shapeCast_self]
  rfl

/-- The reset's payload is zero everywhere. -/
theorem pay3_apply (q : S200x200.Idx) : (k0_pay3 (F := Ideal) : S200x200.Idx → EReal) q = 0 := by
  unfold k0_pay3
  simp only [shapeCast_self]
  exact Ideal.ofBits_zero_f32

/-- The output block's payload at (0, 0, r, c) is the accumulator at (r, c). -/
theorem pay2_apply (v52 : Vec Ideal S200x200 .f32) (r c : Fin 200) :
    (k0_pay2 (F := Ideal) v52 : S1x1x200x200.Idx → EReal) (ix4 (0 : Fin 1) (0 : Fin 1) r c) = v52 (ix2 r c) := by
  unfold k0_pay2
  exact shapeCast_apply v52 Facts₀.shapeCasts_S200x200_S1x1x200x200 (ix4 (0 : Fin 1) (0 : Fin 1) r c) (ix2 r c)
    (by rw [Shape.rowMajor_val_two, Shape.rowMajor_val_four]
        show r.val * 200 + c.val = ((0 * 1 + 0) * 200 + r.val) * 200 + c.val
        omega)

/-- Point `n`'s partial canvas (zero past the grid, where it is never used). -/
def part (c : Dev nD) (n : Nat) : S200x200.Idx → EReal := fun q =>
  if h : n < cfg0.N then (k0_pay4 (F := Ideal) (iblk m c 0 ⟨n, h⟩) (iblk m c 1 ⟨n, h⟩) : S200x200.Idx → EReal) q else 0

/-- The accumulator after point `t`: zero plus the partial canvases of the batch's chunks up to `t`. -/
theorem scratch_apply (c : Dev nD) (t : Fin cfg0.N) (q : S200x200.Idx) :
    ((outsAt0 m c t.val t.isLt).2 : S200x200.Idx → EReal) q
      = 0 + ∑ s ∈ Finset.range (t.val % 4 + 1), part m c (4 * (t.val / 4) + s) q := by
  have hN : cfg0.N = 512 := N_0
  have ht := t.isLt
  rw [soutsAt0_0_eq]
  refine Pipeline.accAt_add_apply (ι := S200x200.Idx) (β := EReal) _ _ (fun _ => 0) (part m c) (4 * (t.val / 4)) 3 ?_ ?_
    (t.val % 4) (by omega) _ q
  · intro h i
    have h0 : (4 * (t.val / 4)) % 4 = 0 := by omega
    have h1 : ¬(4 * (t.val / 4)) % 4 = 3 := by omega
    show (scAt0_0 m c (4 * (t.val / 4)) h (VS0_0.read (Elt Ideal) VS0_0.junk) : S200x200.Idx → EReal) i = 0 + part m c (4 * (t.val / 4)) i
    unfold scAt0_0
    rw [dif_pos h0, dif_neg h1, scratch_A, pay1_apply, pay3_apply]
    unfold part
    rw [dif_pos h]
  · intro n h acc i hlo hhi
    have h0 : ¬n % 4 = 0 := by omega
    show (scAt0_0 m c n h acc : S200x200.Idx → EReal) i = acc i + part m c n i
    unfold scAt0_0
    rw [dif_neg h0]
    by_cases h1 : n % 4 = 3
    · rw [dif_pos h1, scratch_C, pay1_apply]
      unfold part
      rw [dif_pos h]
    · rw [dif_neg h1, scratch_B, pay1_apply]
      unfold part
      rw [dif_pos h]

/-- At a batch's last chunk the output block is the accumulator, viewed [1, 1, 200, 200]. -/
theorem out_eq (c : Dev nD) (t : Fin cfg0.N) (h3 : t.val % 4 = 3) :
    (outsAt0 m c t.val t.isLt).1 = k0_pay2 (F := Ideal) ((outsAt0 m c t.val t.isLt).2) := by
  have h0 : ¬t.val % 4 = 0 := by omega
  rw [outsAt0_C m c t h0 h3]
  dsimp only
  rw [out_C, scratch_C]

end Cert.PatchCanvas.Acc

end
-- ==== Proof.KernelPayload.lean ====
import proofs.«421207_j68968584839577_2_alg».proof.Proof.Gen.KernelIdeal.Skeleton
import proofs.«421207_j68968584839577_2_alg».proof.Proof.Spec
import Idealize.ShloMosaic.Lib.ValueIdx
import Idealize.ShloMosaic.Lib.Pipeline.Value
import Idealize.ShloMosaic.PureOps.Ideal.Laws
noncomputable section
namespace Cert.PatchCanvas.Payload
open Idealize.ShloMosaic Idealize.ShloMosaic.ValueIdx Cert.KernelIdeal Cert.KernelIdeal.Gen Cert.PatchCanvas

/-! ## The words: a comparison bit, widened and converted, is the indicator of the equation -/

/-- The bit of `x = y`, zero-extended to 32 bits and read as a signed integer, is the extended real 1 when the
    equation holds and 0 when it does not; `P` is any decidable spelling of the equation. -/
theorem sel_word (x y : BitVec 32) (P : Prop) [Decidable P] (hP : P ↔ x = y) :
    (FloatOps.sitofp (F := Ideal) .f32 ((IntOp.cmpi .eq x y).setWidth 32) : EReal) = if P then 1 else 0 := by
  show (((BitVec.setWidth 32 (BitVec.ofBool (x == y))).toInt : ℝ) : EReal) = _
  by_cases h : x = y
  · rw [if_pos (hP.mpr h), beq_iff_eq.mpr h]
    have : (BitVec.setWidth 32 (BitVec.ofBool true)).toInt = 1 := by decide
    rw [this]; simp
  · rw [if_neg (fun hp => h (hP.mp hp)), beq_eq_false_iff_ne.mpr h]
    have : (BitVec.setWidth 32 (BitVec.ofBool false)).toInt = 0 := by decide
    rw [this]; simp

/-! ## The pieces of the body, named -/

/-- The x centre words of the 64 emitters, as a [64,1,1] vector. -/
def centre0 (v6 : Vec Ideal S1x64x3 .i32) : IVec S64x1x1 32 :=
  have v7 : IVec S64x3 32 := shapeCast S64x3 v6 shapeCasts_S1x64x3_S64x3
  have v8 : IVec S64x1 32 := extractStridedSlice S64x1 ![0, 0] v7 slices_S64x3_o0_0_S64x1
  have v9 : IVec S64 32 := shapeCast S64 v8 shapeCasts_S64x1_S64
  shapeCast S64x1x1 v9 shapeCasts_S64_S64x1x1

/-- The y centre words of the 64 emitters, as a [64,1,1] vector. -/
def centre1 (v6 : Vec Ideal S1x64x3 .i32) : IVec S64x1x1 32 :=
  have v7 : IVec S64x3 32 := shapeCast S64x3 v6 shapeCasts_S1x64x3_S64x3
  have v11 : IVec S64x1 32 := extractStridedSlice S64x1 ![0, 1] v7 slices_S64x3_o0_1_S64x1
  have v12 : IVec S64 32 := shapeCast S64 v11 shapeCasts_S64x1_S64
  shapeCast S64x1x1 v12 shapeCasts_S64_S64x1x1

/-- Canvas row minus patch row, on 32-bit words: element (r, i) is r − i. -/
def rowDiff : IVec S200x31 32 :=
  subi (iota .tc S200x31 32 [0] iota_S200x31_d0_w32) (iota .tc S200x31 32 [1] iota_S200x31_d1_w32)

/-- Canvas column minus patch column, on 32-bit words: element (j, c) is c − j. -/
def colDiff : IVec S31x200 32 :=
  subi (iota .tc S31x200 32 [1] iota_S31x200_d1_w32) (iota .tc S31x200 32 [0] iota_S31x200_d0_w32)

/-- The row selector: element (e, r, i) is 1 when r − i = x_e − 15 and 0 otherwise. -/
def rowSel (v6 : Vec Ideal S1x64x3 .i32) : FVec Ideal S64x200x31 .bf16 :=
  have v20 : IVec S1x200x31 32 := shapeCast S1x200x31 rowDiff shapeCasts_S200x31_S1x200x31
  have v21 : IVec S64x1x1 32 := broadcast S64x1x1 15#32
  have v22 : IVec S64x1x1 32 := subi (centre0 v6) v21
  have v23 : IVec S64x200x31 32 := broadcastTo S64x200x31 v20 broadcasts_S1x200x31_S64x200x31
  have v24 : IVec S64x200x31 32 := broadcastTo S64x200x31 v22 broadcasts_S64x1x1_S64x200x31
  have v25 : IVec S64x200x31 1 := cmpi .eq v23 v24
  have v26 : IVec S64x200x31 32 := extui 32 v25 natLt_1_32
  have v27 : FVec Ideal S64x200x31 .f32 := sitofp .f32 v26
  truncf .bf16 v27 bitsLt_bf16_f32

/-- The column selector: element (e, j, c) is 1 when c − j = y_e − 15 and 0 otherwise. -/
def colSel (v6 : Vec Ideal S1x64x3 .i32) : FVec Ideal S64x31x200 .bf16 :=
  have v29 : IVec S1x31x200 32 := shapeCast S1x31x200 colDiff shapeCasts_S31x200_S1x31x200
  have v30 : IVec S64x1x1 32 := broadcast S64x1x1 15#32
  have v31 : IVec S64x1x1 32 := subi (centre1 v6) v30
  have v32 : IVec S64x31x200 32 := broadcastTo S64x31x200 v29 broadcasts_S1x31x200_S64x31x200
  have v33 : IVec S64x31x200 32 := broadcastTo S64x31x200 v31 broadcasts_S64x1x1_S64x31x200
  have v34 : IVec S64x31x200 1 := cmpi .eq v32 v33
  have v35 : IVec S64x31x200 32 := extui 32 v34 natLt_1_32
  have v36 : FVec Ideal S64x31x200 .f32 := sitofp .f32 v35
  truncf .bf16 v36 bitsLt_bf16_f32

/-- The patches with their columns shifted: the batched product (e i j, e j c → e i c) of the patches with the column
    selector. -/
def shifted (v3 : Vec Ideal S1x64x31x31 .f32) (v6 : Vec Ideal S1x64x3 .i32) : FVec Ideal S64x31x200 .f32 :=
  have v4 : FVec Ideal S64x31x31 .f32 := shapeCast S64x31x31 v3 shapeCasts_S1x64x31x31_S64x31x31
  have v5 : FVec Ideal S64x31x31 .bf16 := truncf .bf16 v4 bitsLt_bf16_f32
  have cst : FVec Ideal S64x31x200 .f32 := constant S64x31x200 .f32 0x00000000#32
  matmul dot_S64x31x31_S64x31x200_S64x31x200_2_1_1_2_0_0 none v5 (colSel v6) cst

/-- The row selector laid out [200, 64·31]. -/
def rowSelFlat (v6 : Vec Ideal S1x64x3 .i32) : FVec Ideal S200x1984 .bf16 :=
  have v40 : FVec Ideal S200x64x31 .bf16 := transpose S200x64x31 [1, 0, 2] (rowSel v6) transposes_S64x200x31_p1_0_2_S200x64x31
  shapeCast S200x1984 v40 shapeCasts_S200x64x31_S200x1984

/-- The shifted patches laid out [64·31, 200]. -/
def shiftedFlat (v3 : Vec Ideal S1x64x31x31 .f32) (v6 : Vec Ideal S1x64x3 .i32) : FVec Ideal S1984x200 .bf16 :=
  have v39 : FVec Ideal S64x31x200 .bf16 := truncf .bf16 (shifted v3 v6) bitsLt_bf16_f32
  shapeCast S1984x200 v39 shapeCasts_S64x31x200_S1984x200

/-- The body's value is the product of the two flat layouts, into a zero accumulator. -/
theorem pay4_eq (v3 : Vec Ideal S1x64x31x31 .f32) (v6 : Vec Ideal S1x64x3 .i32) :
    k0_pay4 (F := Ideal) v3 v6
      = matmul dot_S200x1984_S1984x200_S200x200_1_0_0_1_n_n none (rowSelFlat v6) (shiftedFlat v3 v6)
          (constant (F := Ideal) S200x200 .f32 0x00000000#32) := rfl

/-! ## The centre words and the iota differences at an index -/

/-- The [64,1,1] x words at (e, 0, 0) are the loaded centres at (0, e, 0). -/
theorem centre0_apply (v6 : Vec Ideal S1x64x3 .i32) (e : Fin 64) :
    centre0 v6 (ix3 e (0 : Fin 1) (0 : Fin 1)) = v6 (ix3 (0 : Fin 1) e (0 : Fin 3)) := by
  unfold centre0
  refine (shapeCast_apply _ _ _ (ix1 e) (by
    rw [Shape.rowMajor_val_one, Shape.rowMajor_val_three]
    show e.val = (e.val * 1 + 0) * 1 + 0
    omega)).trans ?_
  refine (shapeCast_apply _ _ _ (ix2 e (0 : Fin 1)) (by
    rw [Shape.rowMajor_val_two, Shape.rowMajor_val_one]
    show e.val * 1 + 0 = e.val
    omega)).trans ?_
  refine (extractStridedSlice_apply _ _ _ _ (ix2 e (0 : Fin 3)) (fun a => match a with
    | ⟨0, _⟩ => by show e.val = 0 + e.val; omega
    | ⟨1, _⟩ => by show 0 = 0 + 0; rfl)).trans ?_
  exact shapeCast_apply _ _ _ (ix3 (0 : Fin 1) e (0 : Fin 3)) (by
    rw [Shape.rowMajor_val_three, Shape.rowMajor_val_two]
    show (0 * 64 + e.val) * 3 + 0 = e.val * 3 + 0
    omega)

/-- The [64,1,1] y words at (e, 0, 0) are the loaded centres at (0, e, 1). -/
theorem centre1_apply (v6 : Vec Ideal S1x64x3 .i32) (e : Fin 64) :
    centre1 v6 (ix3 e (0 : Fin 1) (0 : Fin 1)) = v6 (ix3 (0 : Fin 1) e (1 : Fin 3)) := by
  unfold centre1
  refine (shapeCast_apply _ _ _ (ix1 e) (by
    rw [Shape.rowMajor_val_one, Shape.rowMajor_val_three]
    show e.val = (e.val * 1 + 0) * 1 + 0
    omega)).trans ?_
  refine (shapeCast_apply _ _ _ (ix2 e (0 : Fin 1)) (by
    rw [Shape.rowMajor_val_two, Shape.rowMajor_val_one]
    show e.val * 1 + 0 = e.val
    omega)).trans ?_
  refine (extractStridedSlice_apply _ _ _ _ (ix2 e (1 : Fin 3)) (fun a => match a with
    | ⟨0, _⟩ => by show e.val = 0 + e.val; omega
    | ⟨1, _⟩ => by show 1 = 1 + 0; rfl)).trans ?_
  exact shapeCast_apply _ _ _ (ix3 (0 : Fin 1) e (1 : Fin 3)) (by
    rw [Shape.rowMajor_val_three, Shape.rowMajor_val_two]
    show (0 * 64 + e.val) * 3 + 1 = e.val * 3 + 1
    omega)

/-- Element (r, i) of the row difference is r − i on 32-bit words. -/
theorem rowDiff_apply (r : Fin 200) (i : Fin 31) :
    rowDiff (ix2 r i) = BitVec.ofNat 32 r.val - BitVec.ofNat 32 i.val := by
  show IntOp.subi (iota .tc S200x31 32 [0] iota_S200x31_d0_w32 (ix2 r i)) (iota .tc S200x31 32 [1] iota_S200x31_d1_w32 (ix2 r i)) = _
  rw [iota_single_apply, iota_single_apply]
  rfl

/-- Element (j, c) of the column difference is c − j on 32-bit words. -/
theorem colDiff_apply (j : Fin 31) (c : Fin 200) :
    colDiff (ix2 j c) = BitVec.ofNat 32 c.val - BitVec.ofNat 32 j.val := by
  show IntOp.subi (iota .tc S31x200 32 [1] iota_S31x200_d1_w32 (ix2 j c)) (iota .tc S31x200 32 [0] iota_S31x200_d0_w32 (ix2 j c)) = _
  rw [iota_single_apply, iota_single_apply]
  rfl

/-! ## The two selectors at an index -/

/-- Row selector at (e, r, i): 1 when patch row i of emitter e lands on canvas row r, else 0. -/
theorem rowSel_apply (v6 : Vec Ideal S1x64x3 .i32) (e : Fin 64) (r : Fin 200) (i : Fin 31) :
    rowSel v6 (ix3 e r i) = if lands (v6 (ix3 (0 : Fin 1) e (0 : Fin 3))) r i then 1 else 0 := by
  have h1 : (broadcastTo S64x200x31 (shapeCast S1x200x31 rowDiff shapeCasts_S200x31_S1x200x31)
      broadcasts_S1x200x31_S64x200x31 : IVec S64x200x31 32) (ix3 e r i)
      = BitVec.ofNat 32 r.val - BitVec.ofNat 32 i.val := by
    refine (broadcastTo_apply _ _ _ (ix3 (0 : Fin 1) r i) (fun a => match a with
      | ⟨0, _⟩ => rfl | ⟨1, _⟩ => rfl | ⟨2, _⟩ => rfl)).trans ?_
    refine (shapeCast_apply _ _ _ (ix2 r i) (by
      rw [Shape.rowMajor_val_two, Shape.rowMajor_val_three]
      show r.val * 31 + i.val = (0 * 200 + r.val) * 31 + i.val
      omega)).trans ?_
    exact rowDiff_apply r i
  have h2 : (broadcastTo S64x200x31 (subi (centre0 v6) (broadcast S64x1x1 15#32))
      broadcasts_S64x1x1_S64x200x31 : IVec S64x200x31 32) (ix3 e r i)
      = v6 (ix3 (0 : Fin 1) e (0 : Fin 3)) - 15#32 := by
    refine (broadcastTo_apply _ _ _ (ix3 e (0 : Fin 1) (0 : Fin 1)) (fun a => match a with
      | ⟨0, _⟩ => rfl | ⟨1, _⟩ => rfl | ⟨2, _⟩ => rfl)).trans ?_
    show IntOp.subi (centre0 v6 (ix3 e (0 : Fin 1) (0 : Fin 1))) 15#32 = _
    rw [centre0_apply]
    rfl
  show FloatOps.sitofp (F := Ideal) .f32 ((IntOp.cmpi .eq
    ((broadcastTo S64x200x31 (shapeCast S1x200x31 rowDiff shapeCasts_S200x31_S1x200x31)
      broadcasts_S1x200x31_S64x200x31 : IVec S64x200x31 32) (ix3 e r i))
    ((broadcastTo S64x200x31 (subi (centre0 v6) (broadcast S64x1x1 15#32))
      broadcasts_S64x1x1_S64x200x31 : IVec S64x200x31 32) (ix3 e r i))).setWidth 32) = _
  rw [h1, h2]
  exact sel_word _ _ _ Iff.rfl

/-- Column selector at (e, j, c): 1 when patch column j of emitter e lands on canvas column c, else 0. -/
theorem colSel_apply (v6 : Vec Ideal S1x64x3 .i32) (e : Fin 64) (j : Fin 31) (c : Fin 200) :
    colSel v6 (ix3 e j c) = if lands (v6 (ix3 (0 : Fin 1) e (1 : Fin 3))) c j then 1 else 0 := by
  have h1 : (broadcastTo S64x31x200 (shapeCast S1x31x200 colDiff shapeCasts_S31x200_S1x31x200)
      broadcasts_S1x31x200_S64x31x200 : IVec S64x31x200 32) (ix3 e j c)
      = BitVec.ofNat 32 c.val - BitVec.ofNat 32 j.val := by
    refine (broadcastTo_apply _ _ _ (ix3 (0 : Fin 1) j c) (fun a => match a with
      | ⟨0, _⟩ => rfl | ⟨1, _⟩ => rfl | ⟨2, _⟩ => rfl)).trans ?_
    refine (shapeCast_apply _ _ _ (ix2 j c) (by
      rw [Shape.rowMajor_val_two, Shape.rowMajor_val_three]
      show j.val * 200 + c.val = (0 * 31 + j.val) * 200 + c.val
      omega)).trans ?_
    exact colDiff_apply j c
  have h2 : (broadcastTo S64x31x200 (subi (centre1 v6) (broadcast S64x1x1 15#32))
      broadcasts_S64x1x1_S64x31x200 : IVec S64x31x200 32) (ix3 e j c)
      = v6 (ix3 (0 : Fin 1) e (1 : Fin 3)) - 15#32 := by
    refine (broadcastTo_apply _ _ _ (ix3 e (0 : Fin 1) (0 : Fin 1)) (fun a => match a with
      | ⟨0, _⟩ => rfl | ⟨1, _⟩ => rfl | ⟨2, _⟩ => rfl)).trans ?_
    show IntOp.subi (centre1 v6 (ix3 e (0 : Fin 1) (0 : Fin 1))) 15#32 = _
    rw [centre1_apply]
    rfl
  show FloatOps.sitofp (F := Ideal) .f32 ((IntOp.cmpi .eq
    ((broadcastTo S64x31x200 (shapeCast S1x31x200 colDiff shapeCasts_S31x200_S1x31x200)
      broadcasts_S1x31x200_S64x31x200 : IVec S64x31x200 32) (ix3 e j c))
    ((broadcastTo S64x31x200 (subi (centre1 v6) (broadcast S64x1x1 15#32))
      broadcasts_S64x1x1_S64x31x200 : IVec S64x31x200 32) (ix3 e j c))).setWidth 32) = _
  rw [h1, h2]
  exact sel_word _ _ _ Iff.rfl

/-! ## The batched product at (e, i, c) -/

/-- Left operand of the batched product: axis 0 is the batch axis, read from the result's axis 0. -/
theorem lhsB_0 (j : S64x31x200.Idx) (k : dot_S64x31x31_S64x31x200_S64x31x200_2_1_1_2_0_0.contr.Idx) :
    (dot_S64x31x31_S64x31x200_S64x31x200_2_1_1_2_0_0.lhsIdx j k 0).val = (j 0).val := by
  unfold DotDims.lhsIdx
  rw [dif_pos (show (0 : Fin S64x31x31.rank) ∈ dot_S64x31x31_S64x31x200_S64x31x200_2_1_1_2_0_0.lhsBatch by decide)]
  rfl

/-- Left operand of the batched product: axis 1 is the free axis, read from the result's axis 1. -/
theorem lhsB_1 (j : S64x31x200.Idx) (k : dot_S64x31x31_S64x31x200_S64x31x200_2_1_1_2_0_0.contr.Idx) :
    (dot_S64x31x31_S64x31x200_S64x31x200_2_1_1_2_0_0.lhsIdx j k 1).val = (j 1).val := by
  unfold DotDims.lhsIdx
  rw [dif_neg (show ¬(1 : Fin S64x31x31.rank) ∈ dot_S64x31x31_S64x31x200_S64x31x200_2_1_1_2_0_0.lhsBatch by decide),
    dif_pos (show (1 : Fin S64x31x31.rank) ∈ dot_S64x31x31_S64x31x200_S64x31x200_2_1_1_2_0_0.lhsNonContracting by decide)]
  rfl

/-- Left operand of the batched product: axis 2 is contracted. -/
theorem lhsB_2 (j : S64x31x200.Idx) (k : dot_S64x31x31_S64x31x200_S64x31x200_2_1_1_2_0_0.contr.Idx) :
    (dot_S64x31x31_S64x31x200_S64x31x200_2_1_1_2_0_0.lhsIdx j k 2).val = (k ⟨0, by decide⟩).val :=
  DotDims.lhsIdx_val_of_single _ rfl j k

/-- Right operand of the batched product: axis 0 is the batch axis, read from the result's axis 0. -/
theorem rhsB_0 (j : S64x31x200.Idx) (k : dot_S64x31x31_S64x31x200_S64x31x200_2_1_1_2_0_0.contr.Idx) :
    (dot_S64x31x31_S64x31x200_S64x31x200_2_1_1_2_0_0.rhsIdx j k 0).val = (j 0).val := by
  unfold DotDims.rhsIdx
  rw [dif_pos (show (0 : Fin S64x31x200.rank) ∈ dot_S64x31x31_S64x31x200_S64x31x200_2_1_1_2_0_0.rhsBatch by decide)]
  rfl

/-- Right operand of the batched product: axis 1 is contracted. -/
theorem rhsB_1 (j : S64x31x200.Idx) (k : dot_S64x31x31_S64x31x200_S64x31x200_2_1_1_2_0_0.contr.Idx) :
    (dot_S64x31x31_S64x31x200_S64x31x200_2_1_1_2_0_0.rhsIdx j k 1).val = (k ⟨0, by decide⟩).val :=
  DotDims.rhsIdx_val_of_single _ rfl j k

/-- Right operand of the batched product: axis 2 is the free axis, read from the result's axis 2. -/
theorem rhsB_2 (j : S64x31x200.Idx) (k : dot_S64x31x31_S64x31x200_S64x31x200_2_1_1_2_0_0.contr.Idx) :
    (dot_S64x31x31_S64x31x200_S64x31x200_2_1_1_2_0_0.rhsIdx j k 2).val = (j 2).val := by
  unfold DotDims.rhsIdx
  rw [dif_neg (show ¬(2 : Fin S64x31x200.rank) ∈ dot_S64x31x31_S64x31x200_S64x31x200_2_1_1_2_0_0.rhsBatch by decide),
    dif_pos (show (2 : Fin S64x31x200.rank) ∈ dot_S64x31x31_S64x31x200_S64x31x200_2_1_1_2_0_0.rhsNonContracting by decide)]
  rfl

/-- The batched product into a zero accumulator, at (e, i, c): the sum over the contracted coordinate j of
    left (e, i, j) times right (e, j, c). -/
theorem batched_apply (lhs : FVec Ideal S64x31x31 .bf16) (rhs : FVec Ideal S64x31x200 .bf16)
    (e : Fin 64) (i : Fin 31) (c : Fin 200) :
    matmul dot_S64x31x31_S64x31x200_S64x31x200_2_1_1_2_0_0 none lhs rhs
        (constant (F := Ideal) S64x31x200 .f32 0x00000000#32) (ix3 e i c)
      = ∑ j : Fin 31, lhs (ix3 e i j) * rhs (ix3 e j c) := by
  show FloatOps.matmul dot_S64x31x31_S64x31x200_S64x31x200_2_1_1_2_0_0 none lhs rhs
    (constant (F := Ideal) S64x31x200 .f32 0x00000000#32) (ix3 e i c) = _
  rw [Ideal.matmul_constant_zero_apply]
  refine (Equiv.sum_comp (contrEquiv1 dot_S64x31x31_S64x31x200_S64x31x200_2_1_1_2_0_0 31 rfl rfl).symm _).symm.trans ?_
  refine Finset.sum_congr rfl fun j _ => ?_
  have hk := contrEquiv1_symm_val dot_S64x31x31_S64x31x200_S64x31x200_2_1_1_2_0_0 31 rfl rfl j
  have hl : dot_S64x31x31_S64x31x200_S64x31x200_2_1_1_2_0_0.lhsIdx (ix3 e i c)
      ((contrEquiv1 dot_S64x31x31_S64x31x200_S64x31x200_2_1_1_2_0_0 31 rfl rfl).symm j) = ix3 e i j := by
    funext a
    refine Fin.ext ?_
    match a with
    | ⟨0, _⟩ => exact lhsB_0 _ _
    | ⟨1, _⟩ => exact lhsB_1 _ _
    | ⟨2, _⟩ => exact (lhsB_2 _ _).trans hk
  have hr : dot_S64x31x31_S64x31x200_S64x31x200_2_1_1_2_0_0.rhsIdx (ix3 e i c)
      ((contrEquiv1 dot_S64x31x31_S64x31x200_S64x31x200_2_1_1_2_0_0 31 rfl rfl).symm j) = ix3 e j c := by
    funext a
    refine Fin.ext ?_
    match a with
    | ⟨0, _⟩ => exact rhsB_0 _ _
    | ⟨1, _⟩ => exact (rhsB_1 _ _).trans hk
    | ⟨2, _⟩ => exact rhsB_2 _ _
  rw [hl, hr]

/-! ## The flat product at (r, c) -/

/-- Left operand of the flat product: axis 0 is the free axis, read from the result's axis 0. -/
theorem lhsF_0 (j : S200x200.Idx) (k : dot_S200x1984_S1984x200_S200x200_1_0_0_1_n_n.contr.Idx) :
    (dot_S200x1984_S1984x200_S200x200_1_0_0_1_n_n.lhsIdx j k 0).val = (j 0).val := by
  unfold DotDims.lhsIdx
  rw [dif_neg (show ¬(0 : Fin S200x1984.rank) ∈ dot_S200x1984_S1984x200_S200x200_1_0_0_1_n_n.lhsBatch by decide),
    dif_pos (show (0 : Fin S200x1984.rank) ∈ dot_S200x1984_S1984x200_S200x200_1_0_0_1_n_n.lhsNonContracting by decide)]
  rfl

/-- Left operand of the flat product: axis 1 is contracted. -/
theorem lhsF_1 (j : S200x200.Idx) (k : dot_S200x1984_S1984x200_S200x200_1_0_0_1_n_n.contr.Idx) :
    (dot_S200x1984_S1984x200_S200x200_1_0_0_1_n_n.lhsIdx j k 1).val = (k ⟨0, by decide⟩).val :=
  DotDims.lhsIdx_val_of_single _ rfl j k

/-- Right operand of the flat product: axis 0 is contracted. -/
theorem rhsF_0 (j : S200x200.Idx) (k : dot_S200x1984_S1984x200_S200x200_1_0_0_1_n_n.contr.Idx) :
    (dot_S200x1984_S1984x200_S200x200_1_0_0_1_n_n.rhsIdx j k 0).val = (k ⟨0, by decide⟩).val :=
  DotDims.rhsIdx_val_of_single _ rfl j k

/-- Right operand of the flat product: axis 1 is the free axis, read from the result's axis 1. -/
theorem rhsF_1 (j : S200x200.Idx) (k : dot_S200x1984_S1984x200_S200x200_1_0_0_1_n_n.contr.Idx) :
    (dot_S200x1984_S1984x200_S200x200_1_0_0_1_n_n.rhsIdx j k 1).val = (j 1).val := by
  unfold DotDims.rhsIdx
  rw [dif_neg (show ¬(1 : Fin S1984x200.rank) ∈ dot_S200x1984_S1984x200_S200x200_1_0_0_1_n_n.rhsBatch by decide),
    dif_pos (show (1 : Fin S1984x200.rank) ∈ dot_S200x1984_S1984x200_S200x200_1_0_0_1_n_n.rhsNonContracting by decide)]
  rfl

/-- The flat product into a zero accumulator, at (r, c): the sum over k of left (r, k) times right (k, c). -/
theorem flat_apply (lhs : FVec Ideal S200x1984 .bf16) (rhs : FVec Ideal S1984x200 .bf16) (r c : Fin 200) :
    matmul dot_S200x1984_S1984x200_S200x200_1_0_0_1_n_n none lhs rhs
        (constant (F := Ideal) S200x200 .f32 0x00000000#32) (ix2 r c)
      = ∑ k : Fin 1984, lhs (ix2 r k) * rhs (ix2 k c) := by
  show FloatOps.matmul dot_S200x1984_S1984x200_S200x200_1_0_0_1_n_n none lhs rhs
    (constant (F := Ideal) S200x200 .f32 0x00000000#32) (ix2 r c) = _
  rw [Ideal.matmul_constant_zero_apply]
  refine (Equiv.sum_comp (contrEquiv1 dot_S200x1984_S1984x200_S200x200_1_0_0_1_n_n 1984 rfl rfl).symm _).symm.trans ?_
  refine Finset.sum_congr rfl fun k _ => ?_
  have hk := contrEquiv1_symm_val dot_S200x1984_S1984x200_S200x200_1_0_0_1_n_n 1984 rfl rfl k
  have hl : dot_S200x1984_S1984x200_S200x200_1_0_0_1_n_n.lhsIdx (ix2 r c)
      ((contrEquiv1 dot_S200x1984_S1984x200_S200x200_1_0_0_1_n_n 1984 rfl rfl).symm k) = ix2 r k := by
    funext a
    refine Fin.ext ?_
    match a with
    | ⟨0, _⟩ => exact lhsF_0 _ _
    | ⟨1, _⟩ => exact (lhsF_1 _ _).trans hk
  have hr : dot_S200x1984_S1984x200_S200x200_1_0_0_1_n_n.rhsIdx (ix2 r c)
      ((contrEquiv1 dot_S200x1984_S1984x200_S200x200_1_0_0_1_n_n 1984 rfl rfl).symm k) = ix2 k c := by
    funext a
    refine Fin.ext ?_
    match a with
    | ⟨0, _⟩ => exact (rhsF_0 _ _).trans hk
    | ⟨1, _⟩ => exact rhsF_1 _ _
  rw [hl, hr]

/-! ## The shifted patches and the two flat layouts at an index -/

/-- The column-shifted patches at (e, i, c): the sum over patch columns j of the patch element (e, i, j) times the
    column selector at (e, j, c). -/
theorem shifted_apply (v3 : Vec Ideal S1x64x31x31 .f32) (v6 : Vec Ideal S1x64x3 .i32)
    (e : Fin 64) (i : Fin 31) (c : Fin 200) :
    shifted v3 v6 (ix3 e i c)
      = ∑ j : Fin 31, v3 (ix4 (0 : Fin 1) e i j)
          * (if lands (v6 (ix3 (0 : Fin 1) e (1 : Fin 3))) c j then 1 else 0) := by
  unfold shifted
  refine (batched_apply _ _ e i c).trans ?_
  refine Finset.sum_congr rfl fun j _ => ?_
  rw [colSel_apply]
  congr 1
  show (shapeCast S64x31x31 v3 shapeCasts_S1x64x31x31_S64x31x31 : FVec Ideal S64x31x31 .f32) (ix3 e i j) = _
  exact shapeCast_apply _ _ _ (ix4 (0 : Fin 1) e i j) (by
    rw [Shape.rowMajor_val_four, Shape.rowMajor_val_three]
    show ((0 * 64 + e.val) * 31 + i.val) * 31 + j.val = (e.val * 31 + i.val) * 31 + j.val
    omega)

/-- The flat row selector at (r, k), k = 31·e + i, is the row selector at (e, r, i). -/
theorem rowSelFlat_apply (v6 : Vec Ideal S1x64x3 .i32) (r : Fin 200) (e : Fin 64) (i : Fin 31) (k : Fin 1984)
    (hk : k.val = e.val * 31 + i.val) :
    rowSelFlat v6 (ix2 r k) = rowSel v6 (ix3 e r i) := by
  unfold rowSelFlat
  refine (shapeCast_apply _ _ _ (ix3 r e i) (by
    rw [Shape.rowMajor_val_three, Shape.rowMajor_val_two]
    show (r.val * 64 + e.val) * 31 + i.val = r.val * 1984 + k.val
    omega)).trans ?_
  exact transpose_apply _ _ _ _ (ix3 e r i) (fun b => match b with | ⟨0, _⟩ => rfl | ⟨1, _⟩ => rfl | ⟨2, _⟩ => rfl)

/-- The flat shifted patches at (k, c), k = 31·e + i, are the shifted patches at (e, i, c). -/
theorem shiftedFlat_apply (v3 : Vec Ideal S1x64x31x31 .f32) (v6 : Vec Ideal S1x64x3 .i32)
    (e : Fin 64) (i : Fin 31) (c : Fin 200) (k : Fin 1984) (hk : k.val = e.val * 31 + i.val) :
    shiftedFlat v3 v6 (ix2 k c) = shifted v3 v6 (ix3 e i c) := by
  unfold shiftedFlat
  refine (shapeCast_apply _ _ _ (ix3 e i c) (by
    rw [Shape.rowMajor_val_three, Shape.rowMajor_val_two]
    show (e.val * 31 + i.val) * 200 + c.val = k.val * 200 + c.val
    omega)).trans ?_
  rfl

/-! ## The body's value at one canvas element -/

/-- At canvas element (r, c) the body's value is what its 64 emitters add there: the flat product's sum over
    k = 31·e + i splits into the sums over emitters e and patch rows i; each term is the row indicator times the
    column-shifted patch row, itself a sum over patch columns j of the patch element times the column indicator; and
    a product of two indicators with a patch element is that element where both equations hold and 0 elsewhere
    (1 · x = x and 0 · x = 0 for every extended real). -/
theorem pay4_apply (v3 : Vec Ideal S1x64x31x31 .f32) (v6 : Vec Ideal S1x64x3 .i32) (r c : Fin 200) :
    k0_pay4 (F := Ideal) v3 v6 (ix2 r c)
      = chunk (fun e i j => v3 (ix4 (0 : Fin 1) e i j)) (fun e => v6 (ix3 (0 : Fin 1) e (0 : Fin 3)))
          (fun e => v6 (ix3 (0 : Fin 1) e (1 : Fin 3))) r c := by
  rw [pay4_eq]
  refine (flat_apply _ _ r c).trans ?_
  refine (sum_divmod 64 31
    (fun e i => (if lands (v6 (ix3 (0 : Fin 1) e (0 : Fin 3))) r i then (1 : EReal) else 0)
      * ∑ j : Fin 31, v3 (ix4 (0 : Fin 1) e i j)
          * (if lands (v6 (ix3 (0 : Fin 1) e (1 : Fin 3))) c j then 1 else 0))
    (fun k => rowSelFlat v6 (ix2 r k) * shiftedFlat v3 v6 (ix2 k c)) ?_).trans ?_
  · intro e i k hk
    show rowSelFlat v6 (ix2 r k) * shiftedFlat v3 v6 (ix2 k c) = _
    rw [rowSelFlat_apply v6 r e i k hk, shiftedFlat_apply v3 v6 e i c k hk, rowSel_apply, shifted_apply]
  · show _ = ∑ e : Fin 64, ∑ i : Fin 31, ∑ j : Fin 31,
      if lands (v6 (ix3 (0 : Fin 1) e (0 : Fin 3))) r i ∧ lands (v6 (ix3 (0 : Fin 1) e (1 : Fin 3))) c j
        then v3 (ix4 (0 : Fin 1) e i j) else 0
    refine Finset.sum_congr rfl fun e _ => Finset.sum_congr rfl fun i _ => ?_
    by_cases hx : lands (v6 (ix3 (0 : Fin 1) e (0 : Fin 3))) r i
    · rw [if_pos hx, one_mul]
      refine Finset.sum_congr rfl fun j _ => ?_
      by_cases hy : lands (v6 (ix3 (0 : Fin 1) e (1 : Fin 3))) c j
      · rw [if_pos hy, if_pos ⟨hx, hy⟩, mul_one]
      · rw [if_neg hy, if_neg (fun h => hy h.2), mul_zero]
    · rw [if_neg hx, zero_mul]
      exact (Finset.sum_eq_zero fun j _ => if_neg (fun h => hx h.1)).symm

end Cert.PatchCanvas.Payload
end
-- ==== Proof.KernelValue.lean ====
/-
  The kernel's result array is the patch canvas.

  Grid point t = 4·b + k reads chunk k of batch b: patch block (b, k) of the patch array and centre block (b, k) of the
  centre array. Its partial canvas is therefore the chunk's share of batch b's canvas; the four chunks of a batch make up
  its 256 emitters, so at the batch's last chunk the accumulator, and with it the output block, holds batch b's whole
  canvas. Point 4·b + 3 writes block b of the result array back, these 128 blocks tile the array, and so the result
  array ends holding the canvas of every batch.
-/
import proofs.«421207_j68968584839577_2_alg».proof.Proof.Gen.KernelIdeal.Value
import proofs.«421207_j68968584839577_2_alg».proof.Proof.KernelAcc
import proofs.«421207_j68968584839577_2_alg».proof.Proof.KernelPayload
import proofs.«421207_j68968584839577_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.PatchCanvas.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.PatchCanvas Cert.PatchCanvas.Acc

variable (m : (ℓ : Loc nD τ sig) → Buf (Elt Ideal) ℓ) (ρ : Dev nD → PrngReg)

/-- The printed index maps, decided over the grid: point t reads patch block (t / 4, t % 4) and centre block (t / 4, t % 4)
    and owns output block t / 4. -/
theorem idx_facts : ∀ t : Fin cfg0.N,
    win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 3) = t.val / 4 ∧ win0_1.index t (1 : Fin 3) = t.val % 4 ∧ win0_1.index t (2 : Fin 3) = 0
    ∧ win0_2.index t (0 : Fin 4) = t.val / 4 ∧ win0_2.index t (1 : Fin 4) = 0
    ∧ win0_2.index t (2 : Fin 4) = 0 ∧ win0_2.index t (3 : Fin 4) = 0 :=
  (by decide +kernel : ∀ t : Fin grid0.N, _)

/-- The batch and the chunk of grid point `n`. -/
def batchOf (n : Nat) (h : n < cfg0.N) : Fin 128 := ⟨n / 4, by have : cfg0.N = 512 := N_0; omega⟩
def chunkOf (n : Nat) : Fin 4 := ⟨n % 4, Nat.mod_lt _ (by decide)⟩

/-- Patch block (b, k), element (0, e, i, j), is patch (i, j) of emitter 64·k + e of batch b. -/
theorem patch_block_apply (c : Dev nD) (t : Fin cfg0.N) (e : Fin 64) (i j : Fin 31) :
    (iblk m c 0 t : Vec Ideal S1x64x31x31 .f32) (ix4 (0 : Fin 1) e i j)
      = m ((c : Thread nD τ).loc main_arg0) (ix4 (batchOf t.val t.isLt) (cat (chunkOf t.val) e) i j) := by
  obtain ⟨e0, e1, e2, e3, -⟩ := idx_facts t
  unfold iblk
  rw [View.read_apply]
  show V m c main_arg0 (((cfg0.win 0).blk t).view.emb (ix4 (0 : Fin 1) e i j)) = m ((c : Thread nD τ).loc main_arg0) _
  unfold V
  congr 1
  funext a
  apply Fin.ext
  match a with
  | ⟨0, _⟩ => show win0_0.index t (0 : Fin 4) * 1 + 1 * 0 = t.val / 4; omega
  | ⟨1, _⟩ => show win0_0.index t (1 : Fin 4) * 64 + 1 * e.val = 64 * (t.val % 4) + e.val; omega
  | ⟨2, _⟩ => show win0_0.index t (2 : Fin 4) * 31 + 1 * i.val = i.val; omega
  | ⟨3, _⟩ => show win0_0.index t (3 : Fin 4) * 31 + 1 * j.val = j.val; omega

/-- Centre block (b, k), element (0, e, k'), is centre word k' of emitter 64·k + e of batch b. -/
theorem centre_block_apply (c : Dev nD) (t : Fin cfg0.N) (e : Fin 64) (k : Fin 3) :
    (iblk m c 1 t : Vec Ideal S1x64x3 .i32) (ix3 (0 : Fin 1) e k)
      = m ((c : Thread nD τ).loc main_arg1) (ix3 (batchOf t.val t.isLt) (cat (chunkOf t.val) e) k) := by
  obtain ⟨-, -, -, -, e4, e5, e6, -⟩ := idx_facts t
  unfold iblk
  rw [View.read_apply]
  show V m c main_arg1 (((cfg0.win 1).blk t).view.emb (ix3 (0 : Fin 1) e k)) = m ((c : Thread nD τ).loc main_arg1) _
  unfold V
  congr 1
  funext a
  apply Fin.ext
  match a with
  | ⟨0, _⟩ => show win0_1.index t (0 : Fin 3) * 1 + 1 * 0 = t.val / 4; omega
  | ⟨1, _⟩ => show win0_1.index t (1 : Fin 3) * 64 + 1 * e.val = 64 * (t.val % 4) + e.val; omega
  | ⟨2, _⟩ => show win0_1.index t (2 : Fin 3) * 3 + 1 * k.val = k.val; omega

/-- Point n's partial canvas is its chunk's share of its batch's canvas. -/
theorem part_apply (c : Dev nD) (n : Nat) (h : n < cfg0.N) (r cc : Fin 200) :
    part m c n (ix2 r cc)
      = chunk (fun e i j => m ((c : Thread nD τ).loc main_arg0) (ix4 (batchOf n h) (cat (chunkOf n) e) i j))
          (fun e => m ((c : Thread nD τ).loc main_arg1) (ix3 (batchOf n h) (cat (chunkOf n) e) (0 : Fin 3)))
          (fun e => m ((c : Thread nD τ).loc main_arg1) (ix3 (batchOf n h) (cat (chunkOf n) e) (1 : Fin 3))) r cc := by
  unfold part
  rw [dif_pos h, Cert.PatchCanvas.Payload.pay4_apply]
  simp only [patch_block_apply m c ⟨n, h⟩, centre_block_apply m c ⟨n, h⟩]

/-- The result array's contents: every batch's canvas. -/
def result (c : Dev nD) : Buf (Elt Ideal) ((c : Thread nD τ).loc main_v0) := fun o =>
  canvas (m ((c : Thread nD τ).loc main_arg0)) (m ((c : Thread nD τ).loc main_arg1)) (o 0) (o 2) (o 3)

/-- What a batch's last chunk writes back is the batch's block of the canvas array. -/
theorem flushed_eq (c : Dev nD) (t : Fin cfg0.N) (hf : (cfg0.win 2).flush t = true) :
    (dats m 0 c).flushed 2 t = ((cfg0.win 2).blk t).view.read (Elt Ideal) (result m c) := by
  have hN : cfg0.N = 512 := N_0
  have ht := t.isLt
  have h3 : t.val % 4 = 3 := (flush0_2 t).mp hf
  obtain ⟨-, -, -, -, -, -, -, e7, e8, e9, e10⟩ := idx_facts t
  rw [flushed2, out_eq m c t h3]
  funext y
  have hy0 : (y 0).val < 1 := (y 0).isLt
  have hy1 : (y 1).val < 1 := (y 1).isLt
  have hy2 : (y 2).val < 200 := (y 2).isLt
  have hy3 : (y 3).val < 200 := (y 3).isLt
  have x1 : (cfg0.win 2).xinj (grid0.coords t) y = ix4 (0 : Fin 1) (0 : Fin 1) (⟨(y 2).val, hy2⟩ : Fin 200) (⟨(y 3).val, hy3⟩ : Fin 200) := by
    funext a
    apply Fin.ext
    match a with
    | ⟨0, _⟩ => show (y 0).val = 0; omega
    | ⟨1, _⟩ => show (y 1).val = 0; omega
    | ⟨2, _⟩ => rfl
    | ⟨3, _⟩ => rfl
  have x2 : ((cfg0.win 2).blk t).view.emb y = ix4 (batchOf t.val t.isLt) (0 : Fin 1) (⟨(y 2).val, hy2⟩ : Fin 200) (⟨(y 3).val, hy3⟩ : Fin 200) := by
    funext a
    apply Fin.ext
    match a with
    | ⟨0, _⟩ => show win0_2.index t (0 : Fin 4) * 1 + 1 * (y 0).val = t.val / 4; omega
    | ⟨1, _⟩ => show win0_2.index t (1 : Fin 4) * 1 + 1 * (y 1).val = 0; omega
    | ⟨2, _⟩ => show win0_2.index t (2 : Fin 4) * 200 + 1 * (y 2).val = (y 2).val; omega
    | ⟨3, _⟩ => show win0_2.index t (3 : Fin 4) * 200 + 1 * (y 3).val = (y 3).val; omega
  show (k0_pay2 (F := Ideal) ((outsAt0 m c t.val t.isLt).2) : S1x1x200x200.Idx → EReal) ((cfg0.win 2).xinj (grid0.coords t) y)
    = result m c (((cfg0.win 2).blk t).view.emb y)
  rw [x1, x2, pay2_apply, scratch_apply, h3, zero_add]
  show _ = canvas _ _ (batchOf t.val t.isLt) (⟨(y 2).val, hy2⟩ : Fin 200) (⟨(y 3).val, hy3⟩ : Fin 200)
  unfold canvas
  rw [canvasOf_eq_sum_chunks, Finset.sum_range]
  refine Finset.sum_congr rfl fun s _ => ?_
  have hs := s.isLt
  have hn : 4 * (t.val / 4) + s.val < cfg0.N := by omega
  rw [part_apply m c _ hn]
  have hb : batchOf (4 * (t.val / 4) + s.val) hn = batchOf t.val t.isLt := Fin.ext (by show (4 * (t.val / 4) + s.val) / 4 = t.val / 4; omega)
  have hc : chunkOf (4 * (t.val / 4) + s.val) = s := Fin.ext (by show (4 * (t.val / 4) + s.val) % 4 = s.val; omega)
  rw [hb, hc]

/-- Every element of the result array lies in the block some batch's last chunk writes back. -/
theorem covered (c : Dev nD) (o : S128x1x200x200.Idx) :
    ∃ t : Fin cfg0.N, (cfg0.win 2).flush t = true ∧ o ∈ ((cfg0.win 2).blk t).view.set := by
  have hN : cfg0.N = 512 := N_0
  have h0 : (o 0).val < 128 := (o 0).isLt
  have h1 : (o 1).val < 1 := (o 1).isLt
  have h2 : (o 2).val < 200 := (o 2).isLt
  have h3 : (o 3).val < 200 := (o 3).isLt
  obtain ⟨t, ht⟩ : ∃ t : Fin cfg0.N, t.val = 4 * (o 0).val + 3 := ⟨⟨4 * (o 0).val + 3, by omega⟩, rfl⟩
  refine ⟨t, (flush0_2 t).mpr (by omega), ?_⟩
  obtain ⟨-, -, -, -, -, -, -, e7, e8, e9, e10⟩ := idx_facts t
  show o ∈ ((View.whole main_v0).slice (win0_2.rect t)).set
  rw [View.set_slice_whole, Rect.mem_set_unit]
  intro a
  match a with
  | ⟨0, _⟩ => show win0_2.index t (0 : Fin 4) * 1 ≤ (o 0).val ∧ (o 0).val < win0_2.index t (0 : Fin 4) * 1 + 1; omega
  | ⟨1, _⟩ => show win0_2.index t (1 : Fin 4) * 1 ≤ (o 1).val ∧ (o 1).val < win0_2.index t (1 : Fin 4) * 1 + 1; omega
  | ⟨2, _⟩ => show win0_2.index t (2 : Fin 4) * 200 ≤ (o 2).val ∧ (o 2).val < win0_2.index t (2 : Fin 4) * 200 + 200; omega
  | ⟨3, _⟩ => show win0_2.index t (3 : Fin 4) * 200 ≤ (o 3).val ∧ (o 3).val < win0_2.index t (3 : Fin 4) * 200 + 200; omega

/-- The result array after the run is the canvas of every batch. -/
theorem final (c : Dev nD) : (dats m 0 c).arrAt 2 cfg0.N = result m c :=
  (dats m 0 c).arrAt_eq_of_cover 2 (result m c) (flushed_eq m c) (covered c)

/-- The kernel's run: the result array at the canvas, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.PatchCanvas.KernelValue

end
-- ==== Proof.LibElemScatter.lean ====
/-
  A host scatter-add of single elements, read at one element.

  `zeros.at[idx].add(upd)` over a flat [N] operand, with an [E × 1] column of indices and [E] updates, prints as a
  `stablehlo.scatter` with an `add` body whose one operand axis is inserted and scatter-indexed and which has no
  update-window axis: at the extended reals element `i` ends at its old value plus the sum of `upd e` over the updates `e`
  whose index word reads `i` as a signed integer; an update whose index leaves the operand contributes nothing.
-/
import Idealize.ShloMosaic.PureOps.Ideal
import Idealize.ShloMosaic.Lib.ValueIdx

noncomputable section

namespace Cert.ElemScatter

open Idealize.ShloMosaic Idealize.ShloMosaic.ValueIdx

/-- Element `i` after an element scatter-add at the extended reals: the old value plus the updates sent to `i`. -/
theorem scatterAdd_elems {N E w : Nat} (d : ScatterDims ⟨1, ![N]⟩ ⟨2, ![E, 1]⟩ ⟨1, ![E]⟩)
    (hiw : d.insertedWindowDims = [0]) (hsd : d.scatterDimsToOperandDims = [0]) (hivd : d.indexVectorDim = 1)
    (x : (⟨1, ![N]⟩ : Shape).Idx → EReal) (idx : IVec ⟨2, ![E, 1]⟩ w) (upd : (⟨1, ![E]⟩ : Shape).Idx → EReal)
    (i : Fin N) :
    (Host.scatterAdd (F := Ideal) (φ := .f32) d x idx upd : (⟨1, ![N]⟩ : Shape).Idx → EReal) (ix1 i)
      = x (ix1 i) + ∑ e ∈ Finset.univ.filter (fun e : Fin E => (idx (ix2 e (0 : Fin 1))).toInt = (i.val : ℤ)), upd (ix1 e) := by
  -- the one operand axis starts at the update's index word read signed, with no window coordinate (it is inserted)
  have hs0 : ∀ j : (⟨1, ![E]⟩ : Shape).Idx, d.start j idx 0 = (idx (ix2 (j 0) (0 : Fin 1))).toInt := by
    intro j
    have hm : (0 : Fin 1) ∈ d.scatterDimsToOperandDims := by rw [hsd]; exact List.mem_singleton.mpr rfl
    have e0 : ∀ X : Fin 1, (j X).val = (j 0).val := fun X => by rw [Subsingleton.elim X 0]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _
    | ⟨1, _⟩ =>
      unfold ScatterDims.siIdx
      rw [dif_pos (by rw [hivd])]
      apply Fin.ext
      show List.idxOf (0 : Fin 1) d.scatterDimsToOperandDims = 0
      rw [hsd]; simp
  have hw0 : ∀ j : (⟨1, ![E]⟩ : Shape).Idx, d.window j 0 = 0 := by
    intro j
    have hk : (0 : Fin 1) ∉ d.sKept := by simp [ScatterDims.sKept, Shape.kept, hiw]
    unfold ScatterDims.window
    rw [dif_neg hk]
  -- an update lands at i exactly when its index word reads i
  have key : ∀ j : (⟨1, ![E]⟩ : Shape).Idx, d.resultIdx? j idx = some (ix1 i) ↔
      (idx (ix2 (j 0) (0 : Fin 1))).toInt = (i.val : ℤ) := by
    intro j
    unfold ScatterDims.resultIdx?
    constructor
    · intro h
      split at h
      · rename_i hr
        have hf := Option.some.inj h
        have h0 : (d.start j idx 0 + d.window j 0).toNat = i.val := congrArg Fin.val (congrFun hf 0)
        have r0 := (hr 0).1
        rw [hs0, hw0] at h0 r0
        omega
      · exact absurd h (by simp)
    · intro h0
      have hr : ∀ a, 0 ≤ d.start j idx a + d.window j a ∧
          d.start j idx a + d.window j a < (⟨1, ![N]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
      rw [dif_pos hr]
      congr 1
      funext a
      match a with
      | ⟨0, _⟩ =>
        apply Fin.ext
        show (d.start j idx 0 + d.window j 0).toNat = i.val
        rw [hs0, hw0, h0]
        omega
  show Ideal.hostScatterAdd d x idx upd (ix1 i) = _
  unfold Ideal.hostScatterAdd
  congr 1
  -- re-index the updates landing at i by their one coordinate
  refine Finset.sum_bij' (fun j _ => (j 0 : Fin E)) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key _).2 (Finset.mem_filter.1 he).2⟩
  · intro j _
    exact (eq_ix1 j).symm
  · intro e _
    rfl
  · intro j _
    exact congrArg upd (eq_ix1 j)

end Cert.ElemScatter

end
-- ==== Proof.RefValue.lean ====
/-
  The reference's result, read at one canvas element, is the specification's canvas.

  The reference gives every patch element (b, e, i, j) the flat canvas position
  (b · 200 + (x − 15 + i)) · 200 + (y − 15 + j), computed on 32-bit words from the emitter's centre (x, y), moves a
  negative position up by the canvas's length 128 · 200 · 200, and adds the flattened patch elements into an array of
  zeros at those positions. For centres in [15, 184] no 32-bit operation wraps and the position lies in the canvas, so
  the move never happens; and since row and column offsets are below 200, a position determines its batch, row and
  column. Hence element (b, r, c) receives exactly the patch elements (e, i, j) of batch b with x − 15 + i = r and
  y − 15 + j = c, which is the specification's sum.
-/
import proofs.«421207_j68968584839577_2_alg».proof.Proof.Gen.ReferenceIdeal.Read
import proofs.«421207_j68968584839577_2_alg».proof.Proof.Spec
import proofs.«421207_j68968584839577_2_alg».proof.Proof.LibElemScatter
import Idealize.ShloMosaic.Lib.ValueIdx
import Idealize.ShloMosaic.Lib.Pipeline.Value
import Idealize.ShloMosaic.PureOps.Ideal.Laws
noncomputable section
namespace Cert.PatchCanvas.Ref
open Idealize.ShloMosaic Idealize.ShloMosaic.ValueIdx Cert.ReferenceIdeal Cert.ReferenceIdeal.Read Cert.PatchCanvas

/-! ## Position words: 32-bit arithmetic on in-range centres is integer arithmetic -/

/-- The flat canvas position, as a 32-bit word, of patch element (i, j) of an emitter of batch `b` with centre
    words (w0, w1): ((b · 200 + (w0 − 15 + i)) · 200 + (w1 − 15 + j)). -/
def linWord (b : Nat) (w0 w1 : BitVec 32) (i j : Nat) : BitVec 32 :=
  (BitVec.ofNat 32 b * 200#32 + ((w0 - 15#32) + BitVec.ofNat 32 i)) * 200#32 + ((w1 - 15#32) + BitVec.ofNat 32 j)

/-- An in-range centre word reads the same signed and unsigned, between 15 and 184. -/
theorem inRange_toNat (w : BitVec 32) (hw : InRange w) : w.toInt = (w.toNat : ℤ) ∧ 15 ≤ w.toNat ∧ w.toNat ≤ 184 := by
  obtain ⟨h1, h2⟩ := hw
  have hc := BitVec.toInt_eq_toNat_cond w
  have hlt := w.isLt
  split at hc <;> omega

/-- For an in-range centre, patch coordinate i lands on canvas coordinate r exactly when w − 15 + i = r over the
    integers. -/
theorem lands_iff (w : BitVec 32) (hw : InRange w) (r : Fin 200) (i : Fin 31) :
    lands w r i ↔ w.toInt - 15 + (i.val : ℤ) = (r.val : ℤ) := by
  unfold lands
  obtain ⟨ht, h1, h2⟩ := inRange_toNat w hw
  rw [ht]
  have hr := r.isLt
  have hi := i.isLt
  constructor
  · intro h
    bv_omega
  · intro h
    bv_omega

/-- No 32-bit operation of the position word wraps: read unsigned it is the natural-number expression. -/
theorem linWord_toNat (b : Nat) (hb : b < 128) (w0 w1 : BitVec 32) (h0 : InRange w0) (h1 : InRange w1) (i j : Nat)
    (hi : i < 31) (hj : j < 31) :
    (linWord b w0 w1 i j).toNat = (b * 200 + (w0.toNat - 15 + i)) * 200 + (w1.toNat - 15 + j) := by
  unfold linWord
  obtain ⟨_, h0a, h0b⟩ := inRange_toNat w0 h0
  obtain ⟨_, h1a, h1b⟩ := inRange_toNat w1 h1
  bv_omega

/-- Read signed, the position word is the integer expression. -/
theorem linWord_toInt (b : Nat) (hb : b < 128) (w0 w1 : BitVec 32) (h0 : InRange w0) (h1 : InRange w1) (i j : Nat)
    (hi : i < 31) (hj : j < 31) :
    (linWord b w0 w1 i j).toInt = (((b : ℤ) * 200 + (w0.toInt - 15 + (i : ℤ))) * 200 + (w1.toInt - 15 + (j : ℤ))) := by
  have hn := linWord_toNat b hb w0 w1 h0 h1 i j hi hj
  obtain ⟨t0, h0a, h0b⟩ := inRange_toNat w0 h0
  obtain ⟨t1, h1a, h1b⟩ := inRange_toNat w1 h1
  have hc := BitVec.toInt_eq_toNat_cond (linWord b w0 w1 i j)
  rw [t0, t1]
  split at hc <;> omega

/-- The position word is not negative, so the reference's wrap-around of negative positions leaves it alone. -/
theorem select_linWord (b : Nat) (hb : b < 128) (w0 w1 : BitVec 32) (h0 : InRange w0) (h1 : InRange w1) (i j : Nat)
    (hi : i < 31) (hj : j < 31) :
    Scalar.select (IntOp.cmpi .slt (linWord b w0 w1 i j) 0#32) (IntOp.addi (linWord b w0 w1 i j) 5120000#32)
      (linWord b w0 w1 i j) = linWord b w0 w1 i j := by
  have ht := linWord_toInt b hb w0 w1 h0 h1 i j hi hj
  obtain ⟨h0a, h0b⟩ := h0
  obtain ⟨h1a, h1b⟩ := h1
  have hz : (0#32 : BitVec 32).toInt = 0 := by decide
  have hc : IntOp.cmpi .slt (linWord b w0 w1 i j) 0#32 = 0#1 := by
    unfold IntOp.cmpi
    simp only [BitVec.slt, hz]
    rw [decide_eq_false (by omega)]
    rfl
  rw [hc]
  exact select_zero _ _

/-- The position word of (b', i, j) is the flat position of canvas element (b, r, c) exactly when the batches agree and
    both patch coordinates land: the three digits of a position in radix 200 are unique. -/
theorem linWord_hits (b' : Fin 128) (w0 w1 : BitVec 32) (h0 : InRange w0) (h1 : InRange w1) (i j : Fin 31)
    (b : Fin 128) (r c : Fin 200) :
    (linWord b'.val w0 w1 i.val j.val).toInt = (((b.val * 200 + r.val) * 200 + c.val : ℕ) : ℤ)
      ↔ (b' = b ∧ lands w0 r i ∧ lands w1 c j) := by
  rw [linWord_toInt b'.val b'.isLt w0 w1 h0 h1 i.val j.val i.isLt j.isLt, lands_iff w0 h0, lands_iff w1 h1, Fin.ext_iff]
  obtain ⟨h0a, h0b⟩ := h0
  obtain ⟨h1a, h1b⟩ := h1
  have := b'.isLt
  have := b.isLt
  have := r.isLt
  have := c.isLt
  have := i.isLt
  have := j.isLt
  constructor
  · intro h
    omega
  · intro h
    omega

/-! ## The flattened patches, summed by coordinates -/

/-- Row-major position of patch element (b, e, i, j) among the 128 · 256 · 31 · 31 flattened patch elements. -/
def flat (b : Fin 128) (e : Fin 256) (i j : Fin 31) : Fin 31490048 :=
  ⟨((b.val * 256 + e.val) * 31 + i.val) * 31 + j.val, by
    have := b.isLt; have := e.isLt; have := i.isLt; have := j.isLt; omega⟩

/-- Flat position of canvas element (b, r, c) among the 128 · 200 · 200 canvas elements. -/
def pos (b : Fin 128) (r c : Fin 200) : Fin 5120000 :=
  ⟨(b.val * 200 + r.val) * 200 + c.val, by have := b.isLt; have := r.isLt; have := c.isLt; omega⟩

/-- A sum over the flattened patch elements is the iterated sum over batch, emitter and the two patch coordinates. -/
theorem sum_flat4 {M : Type*} [AddCommMonoid M] (g : Fin 31490048 → M) :
    ∑ n : Fin 31490048, g n = ∑ b : Fin 128, ∑ e : Fin 256, ∑ i : Fin 31, ∑ j : Fin 31, g (flat b e i j) := by
  have h1 := sum_divmod 128 246016
    (fun (b : Fin 128) (m : Fin 246016) =>
      g ⟨b.val * 246016 + m.val, by have := b.isLt; have := m.isLt; omega⟩) g
    (fun b m k hk => congrArg g (Fin.ext hk))
  refine h1.trans (Finset.sum_congr rfl fun b _ => ?_)
  have hb := b.isLt
  have h2 := sum_divmod 256 961
    (fun (e : Fin 256) (q : Fin 961) =>
      g ⟨b.val * 246016 + (e.val * 961 + q.val), by have := e.isLt; have := q.isLt; omega⟩)
    (fun m : Fin (256 * 961) => g ⟨b.val * 246016 + m.val, by have := m.isLt; omega⟩)
    (fun e q k hk => congrArg g (Fin.ext (by
      show b.val * 246016 + k.val = b.val * 246016 + (e.val * 961 + q.val)
      omega)))
  refine h2.trans (Finset.sum_congr rfl fun e _ => ?_)
  have he := e.isLt
  exact sum_divmod 31 31 (fun (i j : Fin 31) => g (flat b e i j))
    (fun q : Fin (31 * 31) => g ⟨b.val * 246016 + (e.val * 961 + q.val), by have := q.isLt; omega⟩)
    (fun i j k hk => congrArg g (Fin.ext (by
      show b.val * 246016 + (e.val * 961 + k.val) = ((b.val * 256 + e.val) * 31 + i.val) * 31 + j.val
      omega)))

/-! ## The reference's stages at explicit coordinates -/

/-- The position array before flattening: at (b, e, i, j) it is the position word of the emitter's centre words. -/
theorem v32_at (x1 : (⟨S128x256x3, .i32⟩ : BufTy).Contents (Elt Ideal)) (b : Fin 128) (e : Fin 256) (i j : Fin 31) :
    val_main_v32 (F := Ideal) x1 (ix4 b e i j)
      = linWord b.val (x1 (ix3 b e (0 : Fin 3))) (x1 (ix3 b e (1 : Fin 3))) i.val j.val := by
  have hb := b.isLt
  have he := e.isLt
  have e0 : idx_main_v0 (idx_main_v1 (idx_main_v4 (idx_main_v9 (idx_main_v24 (idx_main_v30 (ix4 b e i j))))))
      = ix3 b e (0 : Fin 3) := by
    funext a
    match a with
    | ⟨0, _⟩ => exact Fin.ext (by show (b.val * 256 + e.val) / 256 = b.val; omega)
    | ⟨1, _⟩ => exact Fin.ext (by show (b.val * 256 + e.val) / 1 % 256 = e.val; omega)
    | ⟨2, _⟩ => exact Fin.ext (by show (0 : Nat) = 0; rfl)
  have e1 : idx_main_v2 (idx_main_v3 (idx_main_v12 (idx_main_v17 (idx_main_v29 (idx_main_v31 (ix4 b e i j))))))
      = ix3 b e (1 : Fin 3) := by
    funext a
    match a with
    | ⟨0, _⟩ => exact Fin.ext (by show (b.val * 256 + e.val) / 256 = b.val; omega)
    | ⟨1, _⟩ => exact Fin.ext (by show (b.val * 256 + e.val) / 1 % 256 = e.val; omega)
    | ⟨2, _⟩ => exact Fin.ext (by show 1 + 0 = 1; rfl)
  simp only [val_main_v32_apply, val_main_v30_apply, val_main_v28_apply, val_main_v26_apply, val_main_v25_apply,
    val_main_v23_apply, val_main_v21_apply, val_main_v20_apply, val_main_v22_apply, val_main_c_1_apply,
    val_main_v24_apply, val_main_v11_apply, val_main_v9_apply, val_main_v6_apply, val_main_v4_apply, val_main_v1_apply,
    val_main_v0_apply, val_main_v5_apply, val_main_c_apply, val_main_v10_apply, val_main_v8_apply, val_main_v7_apply,
    val_main_v27_apply, val_main_c_2_apply, val_main_v31_apply, val_main_v29_apply, val_main_v19_apply,
    val_main_v17_apply, val_main_v14_apply, val_main_v12_apply, val_main_v3_apply, val_main_v2_apply,
    val_main_v13_apply, val_main_c_0_apply, val_main_v18_apply, val_main_v16_apply, val_main_v15_apply]
  rw [e0, e1]
  rfl

/-- The flattened position array reads the unflattened one at the coordinates of the flat position. -/
theorem idx34_flat (b : Fin 128) (e : Fin 256) (i j : Fin 31) : idx_main_v34 (ix1 (flat b e i j)) = ix4 b e i j := by
  have hb := b.isLt
  have he := e.isLt
  have hi := i.isLt
  have hj := j.isLt
  funext a
  match a with
  | ⟨0, _⟩ => exact Fin.ext (by show (((b.val * 256 + e.val) * 31 + i.val) * 31 + j.val) / 246016 = b.val; omega)
  | ⟨1, _⟩ => exact Fin.ext (by show (((b.val * 256 + e.val) * 31 + i.val) * 31 + j.val) / 961 % 256 = e.val; omega)
  | ⟨2, _⟩ => exact Fin.ext (by show (((b.val * 256 + e.val) * 31 + i.val) * 31 + j.val) / 31 % 31 = i.val; omega)
  | ⟨3, _⟩ => exact Fin.ext (by show (((b.val * 256 + e.val) * 31 + i.val) * 31 + j.val) % 31 = j.val; omega)

/-- The same for the flattened patches. -/
theorem idx35_flat (b : Fin 128) (e : Fin 256) (i j : Fin 31) : idx_main_v35 (ix1 (flat b e i j)) = ix4 b e i j := by
  have hb := b.isLt
  have he := e.isLt
  have hi := i.isLt
  have hj := j.isLt
  funext a
  match a with
  | ⟨0, _⟩ => exact Fin.ext (by show (((b.val * 256 + e.val) * 31 + i.val) * 31 + j.val) / 246016 = b.val; omega)
  | ⟨1, _⟩ => exact Fin.ext (by show (((b.val * 256 + e.val) * 31 + i.val) * 31 + j.val) / 961 % 256 = e.val; omega)
  | ⟨2, _⟩ => exact Fin.ext (by show (((b.val * 256 + e.val) * 31 + i.val) * 31 + j.val) / 31 % 31 = i.val; omega)
  | ⟨3, _⟩ => exact Fin.ext (by show (((b.val * 256 + e.val) * 31 + i.val) * 31 + j.val) % 31 = j.val; omega)

/-- The scatter's update at the flat position of (b, e, i, j) is patch element (i, j) of emitter e of batch b. -/
theorem v35_at (x0 : (⟨S128x256x31x31, .f32⟩ : BufTy).Contents (Elt Ideal)) (b : Fin 128) (e : Fin 256) (i j : Fin 31) :
    val_main_v35 (F := Ideal) x0 (ix1 (flat b e i j)) = x0 (ix4 b e i j) := by
  rw [val_main_v35_apply, idx35_flat]

/-- The scatter's index at the flat position of (b, e, i, j), for in-range centres, is the position word. -/
theorem v41_at (x1 : (⟨S128x256x3, .i32⟩ : BufTy).Contents (Elt Ideal))
    (hx : ∀ (b : Fin 128) (e : Fin 256), InRange (x1 (ix3 b e (0 : Fin 3))) ∧ InRange (x1 (ix3 b e (1 : Fin 3))))
    (b : Fin 128) (e : Fin 256) (i j : Fin 31) :
    val_main_v41 (F := Ideal) x1 (ix2 (flat b e i j) (0 : Fin 1))
      = linWord b.val (x1 (ix3 b e (0 : Fin 3))) (x1 (ix3 b e (1 : Fin 3))) i.val j.val := by
  have e41 : idx_main_v41 (ix2 (flat b e i j) (0 : Fin 1)) = ix1 (flat b e i j) := by
    funext a
    match a with
    | ⟨0, _⟩ => rfl
  rw [val_main_v41_apply, e41, val_main_v40_apply, val_main_v37_apply, val_main_v39_apply, val_main_v36_apply,
    val_main_v38_apply, val_main_c_3_apply, val_main_c_4_apply, val_main_v34_apply, idx34_flat, v32_at]
  exact select_linWord b.val b.isLt _ _ (hx b e).1 (hx b e).2 i.val j.val i.isLt j.isLt

/-- The result's element (b, 0, r, c) is the scatter's element at the flat position of (b, r, c). -/
theorem idx43_pos (b : Fin 128) (r c : Fin 200) : idx_main_v43 (ix4 b (0 : Fin 1) r c) = ix1 (pos b r c) := by
  funext a
  match a with
  | ⟨0, _⟩ => exact Fin.ext (by show ((b.val * 1 + 0) * 200 + r.val) * 200 + c.val = (b.val * 200 + r.val) * 200 + c.val; omega)

/-- The scatter starts from zeros. -/
theorem v33_at (n : Fin 5120000) : val_main_v33 (F := Ideal) (ix1 n) = (0 : EReal) := by
  rw [val_main_v33_apply, val_main_cst_apply]
  exact Ideal.ofBits_zero_f32

/-! ## The reference's result is the canvas -/

/-- With every centre in range, element (b, 0, r, c) of the reference's result is canvas element (r, c) of batch b:
    the scatter adds to flat position (b · 200 + r) · 200 + c exactly the patch elements (e, i, j) of batch b whose
    two coordinates land on (r, c). -/
theorem ref_apply (x0 : (⟨S128x256x31x31, .f32⟩ : BufTy).Contents (Elt Ideal)) (x1 : (⟨S128x256x3, .i32⟩ : BufTy).Contents (Elt Ideal))
    (hx : ∀ (b : Fin 128) (e : Fin 256), InRange (x1 (ix3 b e (0 : Fin 3))) ∧ InRange (x1 (ix3 b e (1 : Fin 3))))
    (b : Fin 128) (r c : Fin 200) :
    val_main_v43 (F := Ideal) x0 x1 (ix4 b (0 : Fin 1) r c) = canvas x0 x1 b r c := by
  rw [val_main_v43_apply, idx43_pos]
  unfold val_main_v42
  refine (Cert.ElemScatter.scatterAdd_elems scatter_S5120000_S31490048x1_S31490048_n_0_0_1 rfl rfl rfl
    (val_main_v33 (F := Ideal)) (val_main_v41 (F := Ideal) x1) (val_main_v35 (F := Ideal) x0) (pos b r c)).trans ?_
  rw [v33_at, zero_add, Finset.sum_filter]
  refine (sum_flat4 _).trans ?_
  have key : ∀ (b' : Fin 128) (e : Fin 256) (i j : Fin 31),
      (if (val_main_v41 (F := Ideal) x1 (ix2 (flat b' e i j) (0 : Fin 1))).toInt = ((pos b r c).val : ℤ)
        then (val_main_v35 (F := Ideal) x0 (ix1 (flat b' e i j)) : EReal) else 0)
      = if b' = b then
          (if lands (x1 (ix3 b' e (0 : Fin 3))) r i ∧ lands (x1 (ix3 b' e (1 : Fin 3))) c j then x0 (ix4 b' e i j) else 0)
        else 0 := by
    intro b' e i j
    rw [v41_at x1 hx, v35_at]
    have hh := linWord_hits b' _ _ (hx b' e).1 (hx b' e).2 i j b r c
    by_cases hb : b' = b
    · rw [if_pos hb]
      exact if_congr (hh.trans (and_iff_right hb)) rfl rfl
    · rw [if_neg hb, if_neg]
      intro h
      exact hb (hh.1 h).1
  refine (Finset.sum_congr rfl fun b' _ => Finset.sum_congr rfl fun e _ => Finset.sum_congr rfl fun i _ =>
    Finset.sum_congr rfl fun j _ => key b' e i j).trans ?_
  rw [Fintype.sum_eq_single b]
  · simp only [if_true]
    rfl
  · intro b' hne
    simp only [if_neg hne, Finset.sum_const_zero]

end Cert.PatchCanvas.Ref
end
-- ==== Proof.lean ====
/-
  Per-emitter 31 × 31 patches added into a shared 200 × 200 canvas per batch: the kernel against the reference's
  flat-index scatter-add, over the extended reals, for centres whose whole patch stays on the canvas.

  The kernel places a patch by two 0/1 selector matrix products (columns by a batched product, rows and the sum over a
  chunk of 64 emitters by one product), and accumulates the four chunks of a batch in a scratch canvas that the last chunk
  copies out. The reference computes a flat position for every patch element and scatter-adds all of them. Both results,
  at canvas element (r, c) of batch b, are the sum over emitters e and patch coordinates (i, j) of patch element (i, j)
  of e whenever r − i = x − 15 and c − j = y − 15: the kernel's selectors test exactly these equations on 32-bit words,
  and for centres in [15, 184] the reference's position arithmetic does not wrap and names the same element. A product
  with a 0/1 selector keeps or drops its other factor on every extended real and sums commute, so no finiteness is used.

  The frames are the generated ones; the ideal pass rewrote nothing, so the kernel's idealization is the kernel's own text.
-/
import proofs.«421207_j68968584839577_2_alg».proof.Defs
import proofs.«421207_j68968584839577_2_alg».proof.Proof.Gen.Kernel
import proofs.«421207_j68968584839577_2_alg».proof.Proof.Gen.Kernel.Skeleton
import proofs.«421207_j68968584839577_2_alg».proof.Proof.Gen.Kernel.Launch
import proofs.«421207_j68968584839577_2_alg».proof.Proof.Gen.Kernel.Points
import proofs.«421207_j68968584839577_2_alg».proof.Proof.Gen.Kernel.Frame
import proofs.«421207_j68968584839577_2_alg».proof.Proof.Gen.KernelIdeal
import proofs.«421207_j68968584839577_2_alg».proof.Proof.Gen.KernelIdeal.Skeleton
import proofs.«421207_j68968584839577_2_alg».proof.Proof.Gen.KernelIdeal.Launch
import proofs.«421207_j68968584839577_2_alg».proof.Proof.Gen.KernelIdeal.Points
import proofs.«421207_j68968584839577_2_alg».proof.Proof.Gen.KernelIdeal.Frame
import proofs.«421207_j68968584839577_2_alg».proof.Proof.Gen.ReferenceIdeal
import proofs.«421207_j68968584839577_2_alg».proof.Proof.Gen.Pre_finite_inputs
import proofs.«421207_j68968584839577_2_alg».proof.Proof.Gen.KernelIdeal.Value
import proofs.«421207_j68968584839577_2_alg».proof.Proof.Gen.ReferenceIdeal.Run
import proofs.«421207_j68968584839577_2_alg».proof.Proof.Gen.ReferenceIdeal.Read
import proofs.«421207_j68968584839577_2_alg».proof.Proof.PreRange
import proofs.«421207_j68968584839577_2_alg».proof.Proof.KernelValue
import proofs.«421207_j68968584839577_2_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the canvas of every batch in the result array: the kernel by its accumulated selector
    products, the reference by its scatter-add, whose positions the in-range centres keep on the canvas. -/
theorem algebraic : Cert.algebraic_KernelIdeal_ReferenceIdeal := by
  intro m ρ m' ρ' hpre hagree
  refine ⟨fun c => Cert.PatchCanvas.KernelValue.result m c, Cert.PatchCanvas.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2]
  funext o
  obtain ⟨b, z, r, cc, rfl⟩ : ∃ (b : Fin 128) (z : Fin 1) (r cc : Fin 200), o = ix4 b z r cc :=
    ⟨o 0, o 1, o 2, o 3, eq_ix4 o⟩
  obtain rfl : z = 0 := Subsingleton.elim _ _
  rw [Cert.PatchCanvas.Ref.ref_apply _ _ (fun b e =>
    ⟨Cert.PatchCanvas.PreRange.inRange_of_pre _ _ (hpre c) b e (0 : Fin 2),
     Cert.PatchCanvas.PreRange.inRange_of_pre _ _ (hpre c) b e (1 : Fin 2)⟩)]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
